-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S4096 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S4096 .f32 := Host.absf main_arg11
  let main_cst_20 : FVec F S_ .f32 := constant S_ .f32 0x7F800000#32
  let main_v55 : FVec F S4096 .f32 := broadcastInDim S4096 ![] bcast_S_S4096 main_cst_20
  let main_v56 : IVec S4096 1 := cmpf .olt main_v54 main_v55
  let main_c_21 : IVec S_ 1 := constantI S_ 1 1#1
  let main_v57 : IVec S_ 1 := (fun x v => Host.reduce IntOp.andi x v reducesTo_S4096_S_d0 h_S_) main_v56 main_c_21
  let main_v58 : IVec S_ 1 := andi main_v53 main_v57
  main_v58

def fn_part2 {F : FTy → Type} [FloatOps F] (main_arg7 : FVec F S4096 .f32) (main_arg8 : FVec F S4096 .f32) (main_arg9 : FVec F S1024 .f32) (main_arg10 : FVec F S1024 .f32) (main_arg11 : FVec F S4096 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_v48 main_v49 main_v50

def fn_part1 {F : FTy → Type} [FloatOps F] (main_arg4 : FVec F S4096x1024 .f32) (main_arg5 : FVec F S4096 .f32) (main_arg6 : FVec F S4096 .f32) (main_arg7 : FVec F S4096 .f32) (main_arg8 : FVec F S4096 .f32) (main_arg9 : FVec F S1024 .f32) (main_arg10 : FVec F S1024 .f32) (main_arg11 : FVec F S4096 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x1024 .f32) (main_arg1 : FVec F S16384x1024 .f32) (main_arg2 : FVec F S16384x1024 .f32) (main_arg3 : FVec F S4096x1024 .f32) (main_arg4 : FVec F S4096x1024 .f32) (main_arg5 : FVec F S4096 .f32) (main_arg6 : FVec F S4096 .f32) (main_arg7 : FVec F S4096 .f32) (main_arg8 : FVec F S4096 .f32) (main_arg9 : FVec F S1024 .f32) (main_arg10 : FVec F S1024 .f32) (main_arg11 : FVec F S4096 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_arg10 main_arg11 main_v13 main_v16
-- ==== Kernel.lean ====
abbrev S16384x1024 : Shape := ⟨2, ![16384, 1024]⟩
abbrev S4096x1024 : Shape := ⟨2, ![4096, 1024]⟩
abbrev S4096 : Shape := ⟨1, ![4096]⟩
abbrev S1024 : Shape := ⟨1, ![1024]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 23
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1024, .f32⟩
  | .hbm, ⟨10, _⟩ => ⟨S1024, .f32⟩
  | .hbm, ⟨11, _⟩ => ⟨S4096, .f32⟩
  | .hbm, ⟨12, _⟩ => ⟨S4096x1024, .bf16⟩
  | .hbm, ⟨13, _⟩ => ⟨S4096x1024, .bf16⟩
  | .hbm, ⟨14, _⟩ => ⟨S4096, .f32⟩
  | .hbm, ⟨15, _⟩ => ⟨S1x4096, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S1x1024, .f32⟩
  | .hbm, ⟨20, _⟩ => ⟨S1x1024, .f32⟩
  | .hbm, ⟨21, _⟩ => ⟨S16384x1024, .f32⟩
  | .hbm, ⟨22, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S1x4096, .f32⟩
  | .local _ .vmem, ⟨11, _⟩ => ⟨S1x4096, .f32⟩
  | .local _ .vmem, ⟨12, _⟩ => ⟨S1x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9_0 : Ref sig .tc := ⟨.hbm, 21, rfl⟩
abbrev main_v9_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x4096_S256 : S256x4096.Reduces [1] S256
  shapeCasts_S256_S256x1 : S256.ShapeCasts S256x1
  broadcasts_S256x1_S256x4096 : S256x1.Broadcasts S256x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S256x1024_S256 : S256x1024.Reduces [1] S256
  broadcasts_S256x1_S256x1024 : S256x1.Broadcasts S256x1024
  broadcasts_S1x1024_S256x1024 : S1x1024.Broadcasts S256x1024
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S16384x1024.size a
  hwx0_11 : ∀ i : grid0.Coords, EltTy.bits .f32 = 32 ∨ (Rect.block (s := S16384x1024) S256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x1024.size a ≤ S16384x1024.size a
  hwx0_12 : ∀ i : grid0.Coords, EltTy.bits .f32 = 32 ∨ (Rect.block (s := S16384x1024) S256x1024.size (cc0_transform_12 i) (hinb0_12 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S256x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S4096 : Shape := ⟨1, ![4096]⟩
abbrev S1024 : Shape := ⟨1, ![1024]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S1x1024 : Shape := ⟨2, ![1, 1024]⟩

abbrev nBuf : Space → Nat
  | .hbm => 139
  | .vmem => 0
  | .smem => 0
  | _ => 0

abbrev hbmTy0_0 (i : Nat) : BufTy := match i % 128 with
  | 0 => ⟨S16384x1024, .f32⟩
  | 1 => ⟨S16384x1024, .f32⟩
  | 2 => ⟨S16384x1024, .f32⟩
  | 3 => ⟨S4096x1024, .f32⟩
  | 4 => ⟨S4096x1024, .f32⟩
  | 5 => ⟨S4096, .f32⟩
  | 6 => ⟨S4096, .f32⟩
  | 7 => ⟨S4096, .f32⟩
  | 8 => ⟨S4096, .f32⟩
  | 9 => ⟨S1024, .f32⟩
  | 10 => ⟨S1024, .f32⟩
  | 11 => ⟨S4096, .f32⟩
  | 12 => ⟨S16384x4096, .f32⟩
  | 13 => ⟨S16384x4096, .f32⟩
  | 14 => ⟨S_, .f32⟩
  | 15 => ⟨S16384, .f32⟩
  | 16 => ⟨S16384x1, .f32⟩
  | 17 => ⟨S_, .f32⟩
  | 18 => ⟨S16384x1, .f32⟩
  | 19 => ⟨S16384x1, .f32⟩
  | 20 => ⟨S16384x4096, .f32⟩
  | 21 => ⟨S16384x4096, .f32⟩
  | 22 => ⟨S16384x4096, .f32⟩
  | 23 => ⟨S_, .f32⟩
  | 24 => ⟨S16384, .f32⟩
  | 25 => ⟨S16384x1, .f32⟩
  | 26 => ⟨S_, .f32⟩
  | 27 => ⟨S16384x1, .f32⟩
  | 28 => ⟨S16384x1, .f32⟩
  | 29 => ⟨S16384x4096, .f32⟩
  | 30 => ⟨S16384x4096, .f32⟩
  | 31 => ⟨S_, .f32⟩
  | 32 => ⟨S16384x1, .f32⟩
  | 33 => ⟨S16384x1, .f32⟩
  | 34 => ⟨S16384x1, .f32⟩
  | 35 => ⟨S16384x4096, .f32⟩
  | 36 => ⟨S16384x4096, .f32⟩
  | 37 => ⟨S1x4096, .f32⟩
  | 38 => ⟨S16384x4096, .f32⟩
  | 39 => ⟨S16384x4096, .f32⟩
  | 40 => ⟨S1x4096, .f32⟩
  | 41 => ⟨S16384x4096, .f32⟩
  | 42 => ⟨S16384x4096, .f32⟩
  | 43 => ⟨S_, .f32⟩
  | 44 => ⟨S16384, .f32⟩
  | 45 => ⟨S16384x1, .f32⟩
  | 46 => ⟨S_, .f32⟩
  | 47 => ⟨S16384x1, .f32⟩
  | 48 => ⟨S16384x1, .f32⟩
  | 49 => ⟨S16384x4096, .f32⟩
  | 50 => ⟨S16384x4096, .f32⟩
  | 51 => ⟨S16384x4096, .f32⟩
  | 52 => ⟨S_, .f32⟩
  | 53 => ⟨S16384, .f32⟩
  | 54 => ⟨S16384x1, .f32⟩
  | 55 => ⟨S_, .f32⟩
  | 56 => ⟨S16384x1, .f32⟩
  | 57 => ⟨S16384x1, .f32⟩
  | 58 => ⟨S16384x4096, .f32⟩
  | 59 => ⟨S16384x4096, .f32⟩
  | 60 => ⟨S_, .f32⟩
  | 61 => ⟨S16384x1, .f32⟩
  | 62 => ⟨S16384x1, .f32⟩
  | 63 => ⟨S16384x1, .f32⟩
  | 64 => ⟨S16384x4096, .f32⟩
  | 65 => ⟨S16384x4096, .f32⟩
  | 66 => ⟨S1x4096, .f32⟩
  | 67 => ⟨S16384x4096, .f32⟩
  | 68 => ⟨S16384x4096, .f32⟩
  | 69 => ⟨S1x4096, .f32⟩
  | 70 => ⟨S16384x4096, .f32⟩
  | 71 => ⟨S16384x4096, .f32⟩
  | 72 => ⟨S16384x4096, .f32⟩
  | 73 => ⟨S1x4096, .f32⟩
  | 74 => ⟨S16384x4096, .f32⟩
  | 75 => ⟨S16384x4096, .f32⟩
  | 76 => ⟨S16384x1024, .f32⟩
  | 77 => ⟨S16384x1024, .f32⟩
  | 78 => ⟨S16384x1024, .f32⟩
  | 79 => ⟨S16384x1024, .f32⟩
  | 80 => ⟨S16384x1024, .f32⟩
  | 81 => ⟨S16384x1024, .f32⟩
  | 82 => ⟨S_, .f32⟩
  | 83 => ⟨S16384x1024, .f32⟩
  | 84 => ⟨S16384x1024, .f32⟩
  | 85 => ⟨S_, .f32⟩
  | 86 => ⟨S16384x1024, .f32⟩
  | 87 => ⟨S16384x1024, .f32⟩
  | 88 => ⟨S16384x1024, .f32⟩
  | 89 => ⟨S16384x1024, .f32⟩
  | 90 => ⟨S16384x1024, .f32⟩
  | 91 => ⟨S_, .f32⟩
  | 92 => ⟨S16384x1024, .f32⟩
  | 93 => ⟨S16384x1024, .f32⟩
  | 94 => ⟨S_, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S_, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S_, .f32⟩
  | 109 => ⟨S16384, .f32⟩
  | 110 => ⟨S16384x1, .f32⟩
  | 111 => ⟨S_, .f32⟩
  | 112 => ⟨S16384x1, .f32⟩
  | 113 => ⟨S16384x1, .f32⟩
  | 114 => ⟨S16384x1024, .f32⟩
  | 115 => ⟨S16384x1024, .f32⟩
  | 116 => ⟨S16384x1024, .f32⟩
  | 117 => ⟨S_, .f32⟩
  | 118 => ⟨S16384, .f32⟩
  | 119 => ⟨S16384x1, .f32⟩
  | 120 => ⟨S_, .f32⟩
  | 121 => ⟨S16384x1, .f32⟩
  | 122 => ⟨S16384x1, .f32⟩
  | 123 => ⟨S16384x1024, .f32⟩
  | 124 => ⟨S16384x1024, .f32⟩
  | 125 => ⟨S_, .f32⟩
  | 126 => ⟨S16384x1, .f32⟩
  | 127 => ⟨S16384x1, .f32⟩
  | _ => ⟨S16384x1024, .f32⟩

abbrev hbmTy0_1 (i : Nat) : BufTy := match i % 128 with
  | 0 => ⟨S16384x1, .f32⟩
  | 1 => ⟨S16384x1024, .f32⟩
  | 2 => ⟨S16384x1024, .f32⟩
  | 3 => ⟨S1x1024, .f32⟩
  | 4 => ⟨S16384x1024, .f32⟩
  | 5 => ⟨S16384x1024, .f32⟩
  | 6 => ⟨S1x1024, .f32⟩
  | 7 => ⟨S16384x1024, .f32⟩
  | 8 => ⟨S16384x1024, .f32⟩
  | 9 => ⟨S16384x1024, .f32⟩
  | 10 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_3 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_cst_10 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_11 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_cst_14 : Ref sig .tc := ⟨.hbm, 105, rfl⟩
abbrev main_v78 : Ref sig .tc := ⟨.hbm, 106, rfl⟩
abbrev main_v79 : Ref sig .tc := ⟨.hbm, 107, rfl⟩
abbrev main_cst_15 : Ref sig .tc := ⟨.hbm, 108, rfl⟩
abbrev main_v80 : Ref sig .tc := ⟨.hbm, 109, rfl⟩
abbrev main_v81 : Ref sig .tc := ⟨.hbm, 110, rfl⟩
abbrev main_cst_16 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_17 : Ref sig .tc := ⟨.hbm, 117, rfl⟩
abbrev main_v87 : Ref sig .tc := ⟨.hbm, 118, rfl⟩
abbrev main_v88 : Ref sig .tc := ⟨.hbm, 119, rfl⟩
abbrev main_cst_18 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  slices_S16384x4096_S16384x1024_0_0 : S16384x4096.Slices ![0, 0] S16384x1024
  slices_S16384x4096_S16384x1024_0_1024 : S16384x4096.Slices ![0, 1024] S16384x1024
  slices_S16384x4096_S16384x1024_0_2048 : S16384x4096.Slices ![0, 2048] S16384x1024
  slices_S16384x4096_S16384x1024_0_3072 : S16384x4096.Slices ![0, 3072] S16384x1024
  bcast_S_S16384x1024 : S_.BroadcastsInDim S16384x1024 (![] : Fin 0 → Fin S16384x1024.rank)
  reducesTo_S16384x1024_S16384_d1 : S16384x1024.ReducesTo [1] S16384
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.LibDotNT.lean ====
/-
  A matrix times the transpose of a matrix, read at an index, generic in the sizes. For dimension numbers that contract the
  LAST axis of both operands, with no batch axis (rows × contraction times columns × contraction: the product A·Bᵀ),
  the sum over the contraction shape's indices of the operands' products at the dot's operand indices is
  ∑ k < K, l[p, k] · r[q, k]. A kernel's matrix unit into a zero accumulator and the host's dot both read through it at the
  ideal values. Imports only the library.
-/
import Idealize.ShloMosaic.Lib.ValueIdx
import Idealize.ShloMosaic.PureOps.Ideal.Laws

noncomputable section

open scoped BigOperators

namespace Cert.LibDotNT

open Idealize.ShloMosaic Idealize.ShloMosaic.ValueIdx

variable {M K N : Nat} (D : DotDims ⟨2, ![M, K]⟩ ⟨2, ![N, K]⟩ ⟨2, ![M, N]⟩)

/-- A coordinate named by two equal positions is one coordinate. -/
theorem coord_of_pos_eq {s : Shape} (j : s.Idx) {a b : Nat} (ha : a < s.rank) (hb : b < s.rank) (h : a = b) :
    (j ⟨a, ha⟩).val = (j ⟨b, hb⟩).val := by
  cases h; rfl

/-- The left operand's free axis is its rows, and it is the result's first axis. -/
theorem lhs_free (hlb : D.lhsBatch = []) (hln : D.lhsNonContracting = [0]) (p : Fin M) (q : Fin N) (k : D.contr.Idx) :
    (D.lhsIdx (ix2 p q) k 0).val = p.val := by
  unfold DotDims.lhsIdx
  rw [dif_neg (by rw [hlb]; exact List.not_mem_nil), dif_pos (by rw [hln]; exact List.mem_singleton.mpr rfl)]
  simp only [Fin.val_cast]
  exact coord_of_pos_eq (ix2 p q) _ (show 0 < 2 by omega) (by simp [hlb, hln])

/-- The right operand's free axis is its rows too, and it is the result's second axis. -/
theorem rhs_free (hlb : D.lhsBatch = []) (hrb : D.rhsBatch = []) (hln : D.lhsNonContracting = [0])
    (hrn : D.rhsNonContracting = [0]) (p : Fin M) (q : Fin N) (k : D.contr.Idx) :
    (D.rhsIdx (ix2 p q) k 0).val = q.val := by
  unfold DotDims.rhsIdx
  rw [dif_neg (by rw [hrb]; exact List.not_mem_nil), dif_pos (by rw [hrn]; exact List.mem_singleton.mpr rfl)]
  simp only [Fin.val_cast]
  exact coord_of_pos_eq (ix2 p q) _ (show 1 < 2 by omega) (by simp [hlb, hln, hrn])

/-- The contraction at result index (p, q), re-indexed by its one coordinate. -/
theorem sum_nt (hlc : D.lhsContracting = [1]) (hrc : D.rhsContracting = [1]) (hln : D.lhsNonContracting = [0])
    (hrn : D.rhsNonContracting = [0]) (hlb : D.lhsBatch = []) (hrb : D.rhsBatch = [])
    (l : (⟨2, ![M, K]⟩ : Shape).Idx → EReal) (r : (⟨2, ![N, K]⟩ : Shape).Idx → EReal) (p : Fin M) (q : Fin N) :
    ∑ k : D.contr.Idx, l (D.lhsIdx (ix2 p q) k) * r (D.rhsIdx (ix2 p q) k) = ∑ k : Fin K, l (ix2 p k) * r (ix2 q k) := by
  have hr : D.contr.rank = 1 := by rw [D.rank_contr, hlc]; rfl
  have hs : D.contr.size ⟨0, by omega⟩ = K := by
    have h := D.size_contr 0 (by rw [hlc]; exact Nat.one_pos)
    rw [h]; simp [hlc]
  rw [← Equiv.sum_comp (contrEquiv1 D K hr hs).symm]
  refine Finset.sum_congr rfl fun k _ => ?_
  have hk := contrEquiv1_symm_val D K hr hs k
  have e1 : D.lhsIdx (ix2 p q) ((contrEquiv1 D K hr hs).symm k) = ix2 p k := by
    funext a
    match a with
    | ⟨0, _⟩ => exact Fin.ext (lhs_free D hlb hln p q _)
    | ⟨1, _⟩ => exact Fin.ext ((D.lhsIdx_val_of_single hlc (ix2 p q) _).trans hk)
  have e2 : D.rhsIdx (ix2 p q) ((contrEquiv1 D K hr hs).symm k) = ix2 q k := by
    funext a
    match a with
    | ⟨0, _⟩ => exact Fin.ext (rhs_free D hlb hrb hln hrn p q _)
    | ⟨1, _⟩ => exact Fin.ext ((D.rhsIdx_val_of_single hrc (ix2 p q) _).trans hk)
  rw [e1, e2]

/-- The matrix unit's product into the zero accumulator, at the ideal values, read at (p, q). -/
theorem matmul_zero_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision)
    (l : FVec Ideal ⟨2, ![M, K]⟩ φ₁) (r : FVec Ideal ⟨2, ![N, K]⟩ φ₂) (p : Fin M) (q : Fin N) :
    FloatOps.matmul D prec l r (constant ⟨2, ![M, N]⟩ .f32 0x00000000#32) (ix2 p q) = ∑ k : Fin K, l (ix2 p k) * r (ix2 q k) := by
  rw [Ideal.matmul_constant_zero_apply]
  exact sum_nt D hlc hrc hln hrn hlb hrb l r p q

/-- The host's dot, at the ideal values, read at (p, q), whatever its precision and schedule keys. -/
theorem dotGeneral_apply {φ₁ φ₂ : FTy} (hlc : D.lhsContracting = [1]) (hrc : D.rhsContracting = [1]) (hln : D.lhsNonContracting = [0])
    (hrn : D.rhsNonContracting = [0]) (hlb : D.lhsBatch = []) (hrb : D.rhsBatch = []) (prec : Option ContractPrecision) (sched : HostSchedule)
    (l : FVec Ideal ⟨2, ![M, K]⟩ φ₁) (r : FVec Ideal ⟨2, ![N, K]⟩ φ₂) (p : Fin M) (q : Fin N) :
    FloatOps.dotGeneral D prec sched l r (ix2 p q) = ∑ k : Fin K, l (ix2 p k) * r (ix2 q k) := by
  rw [Ideal.dotGeneral_apply]
  exact sum_nt D hlc hrc hln hrn hlb hrb l r p q

end Cert.LibDotNT

end
-- ==== Proof.LibRowOps.lean ====
/-
  Row-wise operations on matrices read at an index, generic in the sizes, as a kernel's vector dialect and the host's
  StableHLO spell them. For an R × C matrix v at the ideal values:
    · the sum along the columns (a vector multi-reduction over axis 1, or the host's reduce with an add body) at row p
      is ∑ k < C, v[p, k] (plus the host's initial value);
    · a length-R vector kept as an R × 1 column (a shape cast, or the host's broadcast_in_dim along axis 0) reads the
      vector at the row;
    · an R × 1 column spread over R × C reads the column at the row; a 1 × C row spread over R × C reads the row at
      the column; a length-C vector as a 1 × C row reads the vector at the column; a scalar spread anywhere reads the scalar.
  Imports only the library.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

variable {R C : Nat} {α : Type} {φ : FTy}

/-! ## Sums along the columns -/

/-- The index over row p with column k inserted is (p, k). -/
theorem lift_row (h : (⟨2, ![R, C]⟩ : Shape).Reduces [1] ⟨1, ![R]⟩) (p : Fin R) (k : Fin C) :
    h.lift (ix1 p) k = ix2 p k := by
  funext a
  match a with
  | ⟨0, _⟩ => exact Fin.ext rfl
  | ⟨1, _⟩ => exact Fin.ext rfl

/-- A vector multi-reduction with an add body over axis 1, at row p. -/
theorem multiReduction_row (v : FVec Ideal ⟨2, ![R, C]⟩ φ) (acc : BitVec φ.bits)
    (h : (⟨2, ![R, C]⟩ : Shape).Reduces [1] ⟨1, ![R]⟩) (hφ : FKind.Formats φ) (hacc : acc = FKind.add.neutral φ hφ) (p : Fin R) :
    multiReduction .add [1] ⟨1, ![R]⟩ v acc h hφ hacc (ix1 p) = ∑ k : Fin C, v (ix2 p k) := by
  rw [Ideal.multiReduction_add_single]
  exact Finset.sum_congr rfl fun k _ => congrArg v (lift_row h p k)

/-- The host's reduce with an add body over axis 1, at row b: the initial value plus the row's sum. -/
theorem hostReduceAdd_row {u : Shape} (x : FVec Ideal ⟨2, ![R, C]⟩ φ) (init : u.Idx → Ideal φ)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x init h' hu (ix1 b) = init (Shape.Idx.first hu) + ∑ k : Fin C, x (ix2 b k) := by
  unfold Host.reduceAdd
  rw [Ideal.hostReduceAdd_def, Ideal.hostReduceAdd_single h' h]
  exact congrArg (init (Shape.Idx.first hu) + ·) (Finset.sum_congr rfl fun k _ => congrArg x (lift_row h b k))

/-- … and from the zero word, the row's sum alone. -/
theorem hostReduceAdd_row_zero {u : Shape} (x : FVec Ideal ⟨2, ![R, C]⟩ .f32)
    (h' : (⟨2, ![R, C]⟩ : Shape).ReducesTo [1] ⟨1, ![R]⟩) (hu : 0 < u.numel)
    (h : (⟨2, ![R, C]⟩ : Shape).Reduces [1] ⟨1, ![R]⟩) (b : Fin R) :
    Host.reduceAdd x (constant (F := Ideal) u .f32 0x00000000#32) h' hu (ix1 b) = ∑ k : Fin C, x (ix2 b k) := by
  rw [hostReduceAdd_row x _ h' hu h b]
  show Ideal.ofBits .f32 0x00000000#32 + _ = _
  rw [Ideal.ofBits_zero_f32, zero_add]

/-! ## A vector kept as a column -/

/-- A length-R vector cast to R × 1 reads, at (p, z), the vector at p. -/
theorem shapeCast_col (u : (⟨1, ![R]⟩ : Shape).Idx → α) (h : (⟨1, ![R]⟩ : Shape).ShapeCasts ⟨2, ![R, 1]⟩) (p : Fin R) (z : Fin 1) :
    shapeCast ⟨2, ![R, 1]⟩ u h (ix2 p z) = u (ix1 p) :=
  shapeCast_apply u h _ _ (by
    have hz : z.val = 0 := by omega
    rw [Shape.rowMajor_val_two, Shape.rowMajor_val_one]
    show p.val = p.val * 1 + z.val
    rw [hz, Nat.mul_one, Nat.add_zero])

/-- The host's broadcast of a length-R vector along axis 0 of R × 1 reads, at (b, z), the vector at b. -/
theorem broadcastInDim_col (u : (⟨1, ![R]⟩ : Shape).Idx → α) (h : (⟨1, ![R]⟩ : Shape).BroadcastsInDim ⟨2, ![R, 1]⟩ ![0])
    (b : Fin R) (z : Fin 1) : broadcastInDim ⟨2, ![R, 1]⟩ ![0] h u (ix2 b z) = u (ix1 b) := by
  refine broadcastInDim_apply _ h u (ix2 b z) (ix1 b) fun a => ?_
  match a with
  | ⟨0, _⟩ =>
    show b.val = if R = 1 then 0 else b.val
    split
    · have := b.isLt; omega
    · rfl

/-! ## A column, a row or a scalar spread over the matrix -/

/-- An R × 1 column broadcast to R × C reads, at (p, q), the column at p. -/
theorem broadcastTo_col (w : (⟨2, ![R, 1]⟩ : Shape).Idx → α) (h : (⟨2, ![R, 1]⟩ : Shape).Broadcasts ⟨2, ![R, C]⟩)
    (p : Fin R) (q : Fin C) : broadcastTo ⟨2, ![R, C]⟩ w h (ix2 p q) = w (ix2 p (0 : Fin 1)) := by
  refine broadcastTo_apply w h (ix2 p q) (ix2 p (0 : Fin 1)) fun ax => ?_
  match ax with
  | ⟨0, _⟩ =>
    show p.val = if R = 1 then 0 else p.val
    split
    · have := p.isLt; omega
    · rfl
  | ⟨1, _⟩ => rfl

/-- The host's broadcast of an R × 1 column over R × C reads, at (b, o), the column at b. -/
theorem broadcastInDim_col_mat (w : (⟨2, ![R, 1]⟩ : Shape).Idx → α)
    (h : (⟨2, ![R, 1]⟩ : Shape).BroadcastsInDim ⟨2, ![R, C]⟩ ![0, 1]) (b : Fin R) (o : Fin C) :
    broadcastInDim ⟨2, ![R, C]⟩ ![0, 1] h w (ix2 b o) = w (ix2 b (0 : Fin 1)) := by
  refine broadcastInDim_apply _ h w (ix2 b o) (ix2 b (0 : Fin 1)) fun a => ?_
  match a with
  | ⟨0, _⟩ =>
    show b.val = if R = 1 then 0 else b.val
    split
    · have := b.isLt; omega
    · rfl
  | ⟨1, _⟩ => rfl

/-- The host's broadcast of a 1 × C row over R × C reads, at (b, o), the row at o. -/
theorem broadcastInDim_row_mat (g : (⟨2, ![1, C]⟩ : Shape).Idx → α)
    (h : (⟨2, ![1, C]⟩ : Shape).BroadcastsInDim ⟨2, ![R, C]⟩ ![0, 1]) (b : Fin R) (o : Fin C) :
    broadcastInDim ⟨2, ![R, C]⟩ ![0, 1] h g (ix2 b o) = g (ix2 (0 : Fin 1) o) := by
  refine broadcastInDim_apply _ h g (ix2 b o) (ix2 (0 : Fin 1) o) fun a => ?_
  match a with
  | ⟨0, _⟩ => rfl
  | ⟨1, _⟩ =>
    show o.val = if C = 1 then 0 else o.val
    split
    · have := o.isLt; omega
    · rfl

/-- The host's broadcast of a length-C vector along axis 1 of 1 × C reads, at (z, o), the vector at o. -/
theorem broadcastInDim_vec_row (g : (⟨1, ![C]⟩ : Shape).Idx → α)
    (h : (⟨1, ![C]⟩ : Shape).BroadcastsInDim ⟨2, ![1, C]⟩ ![1]) (z : Fin 1) (o : Fin C) :
    broadcastInDim ⟨2, ![1, C]⟩ ![1] h g (ix2 z o) = g (ix1 o) := by
  refine broadcastInDim_apply _ h g (ix2 z o) (ix1 o) fun a => ?_
  match a with
  | ⟨0, _⟩ =>
    show o.val = if C = 1 then 0 else o.val
    split
    · have := o.isLt; omega
    · rfl

/-- The host's broadcast of a rank-0 array reads its one element everywhere. -/
theorem broadcastInDim_scalar {t : Shape} (x : (⟨0, ![]⟩ : Shape).Idx → α) (dims : Fin 0 → Fin t.rank)
    (h : (⟨0, ![]⟩ : Shape).BroadcastsInDim t dims) (j : t.Idx) :
    broadcastInDim t dims h x j = x ix0 :=
  broadcastInDim_apply dims h x j ix0 fun a => a.elim0

end Cert.LibRowOps

end
-- ==== Proof.LibLayerNorm.lean ====
/-
  Layer normalisation of the rows of a matrix, read at an index, generic in the sizes.

  On the extended reals a row v of length n is normalised to (v[o] − μ)·(σ² + ε)^(−1/2)·g[o] + b[o], with μ the row's sum
  divided by N and σ² the sum of the squared deviations divided by N (N and ε extended reals: a program passes the
  floats it divides by and adds). This file defines that function (rowMean, rowVar, layerNorm) and shows that the two
  ways a program spells it over an R × C matrix read, at (p, q), as layerNorm of row p at q:
    · a kernel's vector dialect: multi-reduction over axis 1, shape cast to a column, divide by a splat, broadcast of the
      column, subtract, square, …, rsqrt, scale and shift by 1 × C rows broadcast over the matrix (kMean, kNorm);
    · the host's StableHLO: reduce with an add body, broadcast_in_dim of vectors and scalars, divide, …, rsqrt, scale
      and shift by length-C vectors broadcast through 1 × C (hMean, hNorm).
  The four chains are defined at any float family, so that a program's own text can be compared with them before
  values are chosen; the readings are at the ideal values. Both take the mean column as an argument, since programs compute
  it once and use it twice. Imports the library and
  the row-operation lemmas of LibRowOps.
-/
import Idealize.ShloMosaic.Lib.ValueIdx
import Idealize.ShloMosaic.Lib.ValueLayout
import Idealize.ShloMosaic.PureOps.Ideal.Laws
import proofs.«420571_j18511309046399_3_alg».proof.Proof.LibRowOps

noncomputable section

open scoped BigOperators

namespace Cert.LibLayerNorm

open Idealize.ShloMosaic Idealize.ShloMosaic.ValueIdx Cert.LibRowOps

/-- A row's mean: its sum divided by its length (given as an extended real). -/
def rowMean {n : ℕ} (N : EReal) (v : Fin n → EReal) : EReal := Ideal.div (∑ k, v k) N

/-- A row's biased variance about its mean. -/
def rowVar {n : ℕ} (N : EReal) (v : Fin n → EReal) : EReal :=
  Ideal.div (∑ k, (v k - rowMean N v) * (v k - rowMean N v)) N

/-- Layer normalisation of a row, with scale g and shift b. -/
def layerNorm {n : ℕ} (N ε : EReal) (v g b : Fin n → EReal) (o : Fin n) : EReal :=
  (v o - rowMean N v) * Ideal.rsqrt (rowVar N v + ε) * g o + b o

/-- A second shift added to the first comes out of the normalisation: a + (b + β) = (a + b) + β. -/
theorem layerNorm_shift {n : ℕ} (N ε : EReal) (v g b β : Fin n → EReal) (o : Fin n) :
    layerNorm N ε v g (fun o => b o + β o) o = layerNorm N ε v g b o + β o := by
  unfold layerNorm
  exact (add_assoc _ _ _).symm

/-- A vector's reciprocal square root, the kernel's or the host's, read at an index. -/
theorem rsqrt_apply {s : Shape} {φ : FTy} (a : FVec Ideal s φ) (i : s.Idx) : rsqrt a i = Ideal.rsqrt (a i) := rfl
theorem hostRsqrt_apply {s : Shape} {φ : FTy} (a : FVec Ideal s φ) (i : s.Idx) : Host.rsqrt a i = Ideal.rsqrt (a i) := rfl
theorem hostDivf_apply {s : Shape} {φ : FTy} (a b : FVec Ideal s φ) (i : s.Idx) : Host.divf a b i = Ideal.div (a i) (b i) := rfl

variable {R C : Nat} {F : FTy → Type} [FloatOps F]

/-! ## The kernel's spelling -/

section Kernel

variable (hred : (⟨2, ![R, C]⟩ : Shape).Reduces [1] ⟨1, ![R]⟩) (hφ : FKind.Formats .f32)
  (hacc : (0x00000000#32 : BitVec 32) = FKind.add.neutral .f32 hφ)
  (hcast : (⟨1, ![R]⟩ : Shape).ShapeCasts ⟨2, ![R, 1]⟩) (hcol : (⟨2, ![R, 1]⟩ : Shape).Broadcasts ⟨2, ![R, C]⟩)
  (hrow : (⟨2, ![1, C]⟩ : Shape).Broadcasts ⟨2, ![R, C]⟩)

/-- The rows' sums kept as a column and divided by the splat of the float with word nb. -/
def kMean (nb : BitVec 32) (v : FVec F ⟨2, ![R, C]⟩ .f32) : FVec F ⟨2, ![R, 1]⟩ .f32 :=
  divf (shapeCast ⟨2, ![R, 1]⟩ (multiReduction .add [1] ⟨1, ![R]⟩ v 0x00000000#32 hred hφ hacc) hcast)
    (broadcast ⟨2, ![R, 1]⟩ (Scalar.ofBits .f32 nb))

theorem kMean_apply (nb : BitVec 32) (v : FVec Ideal ⟨2, ![R, C]⟩ .f32) (p : Fin R) (z : Fin 1) :
    kMean hred hφ hacc hcast nb v (ix2 p z) = rowMean (Ideal.ofBits .f32 nb) fun k => v (ix2 p k) := by
  unfold kMean rowMean
  rw [divf_apply, shapeCast_col, multiReduction_row, broadcast_apply]
  rfl

/-- The rows normalised about the column mean, scaled and shifted by the rows g and b. -/
def kNorm (nb eb : BitVec 32) (v : FVec F ⟨2, ![R, C]⟩ .f32) (mean : FVec F ⟨2, ![R, 1]⟩ .f32)
    (g b : FVec F ⟨2, ![1, C]⟩ .f32) : FVec F ⟨2, ![R, C]⟩ .f32 :=
  addf (mulf (mulf (subf v (broadcastTo ⟨2, ![R, C]⟩ mean hcol))
      (broadcastTo ⟨2, ![R, C]⟩ (rsqrt (addf (kMean hred hφ hacc hcast nb
          (mulf (subf v (broadcastTo ⟨2, ![R, C]⟩ mean hcol)) (subf v (broadcastTo ⟨2, ![R, C]⟩ mean hcol))))
        (broadcast ⟨2, ![R, 1]⟩ (Scalar.ofBits .f32 eb)))) hcol))
    (broadcastTo ⟨2, ![R, C]⟩ g hrow)) (broadcastTo ⟨2, ![R, C]⟩ b hrow)

theorem kNorm_apply (nb eb : BitVec 32) (v : FVec Ideal ⟨2, ![R, C]⟩ .f32) (mean : FVec Ideal ⟨2, ![R, 1]⟩ .f32)
    (g b : FVec Ideal ⟨2, ![1, C]⟩ .f32)
    (hmean : ∀ p : Fin R, mean (ix2 p (0 : Fin 1)) = rowMean (Ideal.ofBits .f32 nb) fun k => v (ix2 p k))
    (p : Fin R) (q : Fin C) :
    kNorm hred hφ hacc hcast hcol hrow nb eb v mean g b (ix2 p q)
      = layerNorm (Ideal.ofBits .f32 nb) (Ideal.ofBits .f32 eb) (fun k => v (ix2 p k)) (fun k => g (ix2 (0 : Fin 1) k))
          (fun k => b (ix2 (0 : Fin 1) k)) q := by
  simp only [kNorm, layerNorm, rowVar, addf_apply, mulf_apply, subf_apply, rsqrt_apply, broadcast_apply, broadcastTo_col,
    broadcastTo_1b_ab_apply, kMean_apply, hmean]
  rfl

end Kernel

/-! ## The host's spelling -/

section Host

variable (hT : (⟨2, ![R, C]⟩ : Shape).ReducesTo [1] ⟨1, ![R]⟩) (hu : 0 < (⟨0, ![]⟩ : Shape).numel)
  (hred : (⟨2, ![R, C]⟩ : Shape).Reduces [1] ⟨1, ![R]⟩)
  (hc0 : (⟨1, ![R]⟩ : Shape).BroadcastsInDim ⟨2, ![R, 1]⟩ ![0])
  (hs : (⟨0, ![]⟩ : Shape).BroadcastsInDim ⟨2, ![R, 1]⟩ ![])
  (hcm : (⟨2, ![R, 1]⟩ : Shape).BroadcastsInDim ⟨2, ![R, C]⟩ ![0, 1])
  (hvr : (⟨1, ![C]⟩ : Shape).BroadcastsInDim ⟨2, ![1, C]⟩ ![1])
  (hrm : (⟨2, ![1, C]⟩ : Shape).BroadcastsInDim ⟨2, ![R, C]⟩ ![0, 1])

/-- The rows' sums (from the zero word) as a column, divided by the broadcast scalar with word nb. -/
def hMean (nb : BitVec 32) (v : FVec F ⟨2, ![R, C]⟩ .f32) : FVec F ⟨2, ![R, 1]⟩ .f32 :=
  Host.divf (broadcastInDim ⟨2, ![R, 1]⟩ ![0] hc0 (Host.reduceAdd v (constant (F := F) ⟨0, ![]⟩ .f32 0x00000000#32) hT hu))
    (broadcastInDim ⟨2, ![R, 1]⟩ ![] hs (constant (F := F) ⟨0, ![]⟩ .f32 nb))

include hred in
theorem hMean_apply (nb : BitVec 32) (v : FVec Ideal ⟨2, ![R, C]⟩ .f32) (p : Fin R) (z : Fin 1) :
    hMean hT hu hc0 hs nb v (ix2 p z) = rowMean (Ideal.ofBits .f32 nb) fun k => v (ix2 p k) := by
  unfold hMean rowMean
  rw [hostDivf_apply, broadcastInDim_col, hostReduceAdd_row_zero v hT hu hred, broadcastInDim_scalar]
  rfl

/-- The rows normalised about the column mean, scaled and shifted by the vectors g and b. -/
def hNorm (nb eb : BitVec 32) (v : FVec F ⟨2, ![R, C]⟩ .f32) (mean : FVec F ⟨2, ![R, 1]⟩ .f32)
    (g b : FVec F ⟨1, ![C]⟩ .f32) : FVec F ⟨2, ![R, C]⟩ .f32 :=
  addf (mulf (mulf (subf v (broadcastInDim ⟨2, ![R, C]⟩ ![0, 1] hcm mean))
      (broadcastInDim ⟨2, ![R, C]⟩ ![0, 1] hcm (Host.rsqrt (addf (hMean hT hu hc0 hs nb
          (mulf (subf v (broadcastInDim ⟨2, ![R, C]⟩ ![0, 1] hcm mean)) (subf v (broadcastInDim ⟨2, ![R, C]⟩ ![0, 1] hcm mean))))
        (broadcastInDim ⟨2, ![R, 1]⟩ ![] hs (constant (F := F) ⟨0, ![]⟩ .f32 eb))))))
    (broadcastInDim ⟨2, ![R, C]⟩ ![0, 1] hrm (broadcastInDim ⟨2, ![1, C]⟩ ![1] hvr g)))
    (broadcastInDim ⟨2, ![R, C]⟩ ![0, 1] hrm (broadcastInDim ⟨2, ![1, C]⟩ ![1] hvr b))

include hred in
theorem hNorm_apply (nb eb : BitVec 32) (v : FVec Ideal ⟨2, ![R, C]⟩ .f32) (mean : FVec Ideal ⟨2, ![R, 1]⟩ .f32)
    (g b : FVec Ideal ⟨1, ![C]⟩ .f32)
    (hmean : ∀ p : Fin R, mean (ix2 p (0 : Fin 1)) = rowMean (Ideal.ofBits .f32 nb) fun k => v (ix2 p k))
    (p : Fin R) (q : Fin C) :
    hNorm hT hu hc0 hs hcm hvr hrm nb eb v mean g b (ix2 p q)
      = layerNorm (Ideal.ofBits .f32 nb) (Ideal.ofBits .f32 eb) (fun k => v (ix2 p k)) (fun k => g (ix1 k))
          (fun k => b (ix1 k)) q := by
  have hdev : ∀ k : Fin C, subf v (broadcastInDim ⟨2, ![R, C]⟩ ![0, 1] hcm mean) (ix2 p k)
      = v (ix2 p k) - rowMean (Ideal.ofBits .f32 nb) fun k => v (ix2 p k) := fun k => by
    rw [subf_apply, broadcastInDim_col_mat, hmean]
  have hvar : hMean hT hu hc0 hs nb
      (mulf (subf v (broadcastInDim ⟨2, ![R, C]⟩ ![0, 1] hcm mean)) (subf v (broadcastInDim ⟨2, ![R, C]⟩ ![0, 1] hcm mean)))
        (ix2 p (0 : Fin 1))
      = rowVar (Ideal.ofBits .f32 nb) fun k => v (ix2 p k) := by
    rw [hMean_apply (hred := hred)]
    unfold rowVar
    refine congrArg (Ideal.div · _) (Finset.sum_congr rfl fun k _ => ?_)
    show subf v _ (ix2 p k) * subf v _ (ix2 p k) = _
    rw [hdev]
  unfold hNorm layerNorm
  show subf v _ (ix2 p q) * broadcastInDim _ _ hcm (Host.rsqrt _) (ix2 p q) * broadcastInDim _ _ hrm _ (ix2 p q)
      + broadcastInDim _ _ hrm _ (ix2 p q) = _
  rw [hdev, broadcastInDim_col_mat, broadcastInDim_row_mat, broadcastInDim_row_mat, broadcastInDim_vec_row,
    broadcastInDim_vec_row, hostRsqrt_apply, addf_apply, hvar, broadcastInDim_scalar]
  rfl

end Host

end Cert.LibLayerNorm

end
-- ==== Proof.Spec.lean ====
/-
  The layer-normalised LSTM cell, row by row, on the extended reals.

  For one batch row with input features x, hidden state h and cell state c (each of length 1024) the cell computes
  two affine-free projections onto 4096 gate pre-activations, z₁[o] = ∑ₖ x[k]·Wi[o,k] and z₂[o] = ∑ₖ h[k]·Wh[o,k],
  normalises each over its 4096 entries (LibLayerNorm's layerNorm: mean, biased variance, reciprocal square root of
  variance + ε, scale, shift),
  adds the two and a bias, and reads the four gates off the four quarters of that sum:
      c' = σ(f)·c + σ(i)·tanh(g),      h' = σ(o)·tanh(LN(c')).
  Here the normalisation over a row of length n divides by the float n (4096.0 or 1024.0, kept as their binary words) and
  ε is the float nearest 1e-5. The bias may be added last, or folded into the first normalisation's shift: addition on
  the extended reals is associative and commutative, so the two agree (gatesSum_fold).
-/
import Idealize.ShloMosaic.PureOps.Ideal
import proofs.«420571_j18511309046399_3_alg».proof.Proof.LibLayerNorm

noncomputable section

open scoped BigOperators

namespace Cert.LstmCell

open Idealize.ShloMosaic Cert.LibLayerNorm

/-- The float nearest 1e-5, the variance's offset. -/
abbrev eps : EReal := Ideal.ofBits .f32 0x3727C5AC#32
/-- The float 4096.0, the gate row's length. -/
abbrev len4096 : EReal := Ideal.ofBits .f32 0x45800000#32
/-- The float 1024.0, the cell row's length. -/
abbrev len1024 : EReal := Ideal.ofBits .f32 0x44800000#32

/-- A row times the transpose of a matrix: entry o is ∑ₖ x[k]·W[o,k]. -/
def proj {K n : ℕ} (x : Fin K → EReal) (W : Fin n → Fin K → EReal) (o : Fin n) : EReal := ∑ k, x k * W o k

/-- The two normalised projections added, with shifts b₁ and b₂. -/
def gatesSum (x h : Fin 1024 → EReal) (Wi Wh : Fin 4096 → Fin 1024 → EReal) (gi b₁ gh b₂ : Fin 4096 → EReal)
    (o : Fin 4096) : EReal :=
  layerNorm len4096 eps (proj x Wi) gi b₁ o + layerNorm len4096 eps (proj h Wh) gh b₂ o

/-- The gate pre-activations: the two normalised projections and the bias, added last. -/
def gates (x h : Fin 1024 → EReal) (Wi Wh : Fin 4096 → Fin 1024 → EReal) (gi bi gh bh bias : Fin 4096 → EReal)
    (o : Fin 4096) : EReal :=
  gatesSum x h Wi Wh gi bi gh bh o + bias o

/-- Folding the bias into the first normalisation's shift changes nothing: (a + (b + β)) + d = ((a + b) + d) + β. -/
theorem gatesSum_fold (x h : Fin 1024 → EReal) (Wi Wh : Fin 4096 → Fin 1024 → EReal) (gi bi gh bh bias : Fin 4096 → EReal) :
    gatesSum x h Wi Wh gi (fun o => bi o + bias o) gh bh = gates x h Wi Wh gi bi gh bh bias := by
  funext o
  unfold gates gatesSum
  rw [layerNorm_shift, add_right_comm]

/-- The forget, input, output and candidate quarters of a gate row. -/
abbrev qF (j : Fin 1024) : Fin 4096 := ⟨0 + j.val, by have := j.isLt; omega⟩
abbrev qI (j : Fin 1024) : Fin 4096 := ⟨1024 + j.val, by have := j.isLt; omega⟩
abbrev qO (j : Fin 1024) : Fin 4096 := ⟨2048 + j.val, by have := j.isLt; omega⟩
abbrev qG (j : Fin 1024) : Fin 4096 := ⟨3072 + j.val, by have := j.isLt; omega⟩

/-- The new cell state: σ(f)·c + σ(i)·tanh(g). -/
def cellNext (z : Fin 4096 → EReal) (c : Fin 1024 → EReal) (j : Fin 1024) : EReal :=
  Ideal.logistic (z (qF j)) * c j + Ideal.logistic (z (qI j)) * Ideal.tanh (z (qG j))

/-- The new hidden state: σ(o)·tanh(LN(c')). -/
def hiddenNext (z : Fin 4096 → EReal) (c gc bc : Fin 1024 → EReal) (j : Fin 1024) : EReal :=
  Ideal.logistic (z (qO j)) * Ideal.tanh (layerNorm len1024 eps (cellNext z c) gc bc j)

end Cert.LstmCell

end
-- ==== Proof.KernelPay.lean ====
/-
  What the kernel's body computes in one 256-row block, entry by entry, at the ideal values.

  The body's pure values (its payloads) are matrices over the block's rows. Read at row p they are the LSTM cell's row
  functions of Spec.lean applied to row p of the x, h and c blocks, the two whole weight matrices and the scale and shift
  rows: the two matrix products are the projections, each normalisation chain is layerNorm of its row, the four slices of
  the summed gates are its four quarters, and the two stored values are cellNext and hiddenNext.
-/
import proofs.«420571_j18511309046399_3_alg».proof.Proof.Gen.KernelIdeal.Skeleton
import proofs.«420571_j18511309046399_3_alg».proof.Proof.LibDotNT
import proofs.«420571_j18511309046399_3_alg».proof.Proof.LibLayerNorm
import proofs.«420571_j18511309046399_3_alg».proof.Proof.Spec
import Idealize.ShloMosaic.Lib.ValueIdx
import Idealize.ShloMosaic.Lib.ValueLayout
import Idealize.ShloMosaic.Lib.Pipeline.Value

noncomputable section

open scoped BigOperators

namespace Cert.LstmCell.KernelPay

open Cert.KernelIdeal Cert.KernelIdeal.Gen Idealize.ShloMosaic Idealize.ShloMosaic.ValueIdx Cert.LibLayerNorm Cert.LstmCell

/-- Row p of a 256 × 1024 block. -/
abbrev row (x : FVec Ideal S256x1024 .f32) (p : Fin 256) : Fin 1024 → EReal := fun k => x (ix2 p k)
/-- A 4096 × 1024 weight matrix by coordinates. -/
abbrev mat (w : FVec Ideal S4096x1024 .bf16) : Fin 4096 → Fin 1024 → EReal := fun o k => w (ix2 o k)
/-- A 1 × 4096 row by its column. -/
abbrev wide (g : FVec Ideal S1x4096 .f32) : Fin 4096 → EReal := fun o => g (ix2 (0 : Fin 1) o)
/-- A 1 × 1024 row by its column. -/
abbrev narrow (g : FVec Ideal S1x1024 .f32) : Fin 1024 → EReal := fun j => g (ix2 (0 : Fin 1) j)

/-! ## The projections -/

/-- The matrix unit's product of a block with a weight matrix, contracting both on their columns, at (p, o): row p
    projected on weight row o. -/
theorem pay2_apply (v2 : FVec Ideal S256x1024 .f32) (v7 : FVec Ideal S4096x1024 .bf16) (p : Fin 256) (o : Fin 4096) :
    k0_pay2 (F := Ideal) v2 v7 (ix2 p o) = proj (row v2 p) (mat v7) o := by
  unfold k0_pay2 proj
  rw [shapeCast_self]
  exact LibDotNT.matmul_zero_apply dot_S256x1024_S4096x1024_S256x4096_1_1_0_0_n_n rfl rfl rfl rfl rfl rfl none _ _ p o

/-! ## The normalised projections and their sum -/

/-- The first normalisation chain is the kernel dialect's layer normalisation of the x-projection (the body's text,
    compared at any float family). -/
theorem pay3_eq {F : FTy → Type} [FloatOps F] (v0 : FVec F S256x1024 .f32) (v5 : FVec F S4096x1024 .bf16) (v11 v13 : FVec F S1x4096 .f32) :
    k0_pay3 (F := F) v0 v5 v11 v13
      = kNorm reduces_S256x4096_S256 (.inl rfl) rfl shapeCasts_S256_S256x1 broadcasts_S256x1_S256x4096 broadcasts_S1x4096_S256x4096
          0x45800000#32 0x3727C5AC#32 (k0_pay2 (F := F) v0 v5)
          (kMean reduces_S256x4096_S256 (.inl rfl) rfl shapeCasts_S256_S256x1 0x45800000#32 (k0_pay2 (F := F) v0 v5))
          (shapeCast S1x4096 v11 shapeCasts_S1x4096_S1x4096) (shapeCast S1x4096 v13 shapeCasts_S1x4096_S1x4096) := rfl

theorem pay3_apply (v0 : FVec Ideal S256x1024 .f32) (v5 : FVec Ideal S4096x1024 .bf16) (v11 v13 : FVec Ideal S1x4096 .f32)
    (p : Fin 256) (o : Fin 4096) :
    k0_pay3 (F := Ideal) v0 v5 v11 v13 (ix2 p o)
      = layerNorm len4096 eps (proj (row v0 p) (mat v5)) (wide v11) (wide v13) o := by
  refine (congrFun (pay3_eq v0 v5 v11 v13) (ix2 p o)).trans ?_
  refine (kNorm_apply _ _ _ _ _ _ _ _ _ _ _ _ (fun p => kMean_apply _ _ _ _ _ _ p 0) p o).trans ?_
  rw [shapeCast_self, shapeCast_self]
  exact congrArg (fun v => layerNorm len4096 eps v (wide v11) (wide v13) o) (funext fun k => pay2_apply v0 v5 p k)

/-- The second chain normalises the h-projection and adds the first chain's result. -/
theorem pay4_eq {F : FTy → Type} [FloatOps F] (v10 v36 : FVec F S256x4096 .f32) (v37 v39 : FVec F S1x4096 .f32) :
    k0_pay4 (F := F) v10 v36 v37 v39
      = addf v36 (kNorm reduces_S256x4096_S256 (.inl rfl) rfl shapeCasts_S256_S256x1 broadcasts_S256x1_S256x4096 broadcasts_S1x4096_S256x4096
          0x45800000#32 0x3727C5AC#32 v10
          (kMean reduces_S256x4096_S256 (.inl rfl) rfl shapeCasts_S256_S256x1 0x45800000#32 v10)
          (shapeCast S1x4096 v37 shapeCasts_S1x4096_S1x4096) (shapeCast S1x4096 v39 shapeCasts_S1x4096_S1x4096)) := rfl

theorem pay4_apply (v10 v36 : FVec Ideal S256x4096 .f32) (v37 v39 : FVec Ideal S1x4096 .f32) (p : Fin 256) (o : Fin 4096) :
    k0_pay4 (F := Ideal) v10 v36 v37 v39 (ix2 p o)
      = v36 (ix2 p o) + layerNorm len4096 eps (fun k => v10 (ix2 p k)) (wide v37) (wide v39) o := by
  refine (congrFun (pay4_eq v10 v36 v37 v39) (ix2 p o)).trans ?_
  rw [addf_apply]
  refine congrArg (v36 (ix2 p o) + ·) ?_
  refine (kNorm_apply _ _ _ _ _ _ _ _ _ _ _ _ (fun p => kMean_apply _ _ _ _ _ _ p 0) p o).trans ?_
  rw [shapeCast_self, shapeCast_self]

/-- The summed gates of a block, read at (p, o): gatesSum of row p. -/
theorem gates_apply (x0 x1 : FVec Ideal S256x1024 .f32) (x3 x4 : FVec Ideal S4096x1024 .bf16) (x5 x6 x7 x8 : FVec Ideal S1x4096 .f32)
    (p : Fin 256) (o : Fin 4096) :
    k0_pay4 (F := Ideal) (k0_pay2 (F := Ideal) x1 x4) (k0_pay3 (F := Ideal) x0 x3 x5 x6) x7 x8 (ix2 p o)
      = gatesSum (row x0 p) (row x1 p) (mat x3) (mat x4) (wide x5) (wide x6) (wide x7) (wide x8) o := by
  rw [pay4_apply, pay3_apply]
  unfold gatesSum
  exact congrArg (fun v => _ + layerNorm len4096 eps v (wide x7) (wide x8) o) (funext fun k => pay2_apply x1 x4 p k)

/-! ## The gates' quarters, the new cell state and the new hidden state -/

/-- σ(f)·c + σ(i)·tanh(g) over the first, second and fourth quarters of the summed gates Z. -/
theorem pay5_apply (v4 : FVec Ideal S256x1024 .f32) (v10 v36 : FVec Ideal S256x4096 .f32) (v37 v39 : FVec Ideal S1x4096 .f32)
    (p : Fin 256) (j : Fin 1024) :
    k0_pay5 (F := Ideal) v4 v10 v36 v37 v39 (ix2 p j)
      = cellNext (fun o => k0_pay4 (F := Ideal) v10 v36 v37 v39 (ix2 p o)) (row v4 p) j := by
  unfold k0_pay5 cellNext
  show Ideal.logistic (extractStridedSlice S256x1024 ![0, 0] (k0_pay4 (F := Ideal) v10 v36 v37 v39) slices_S256x4096_o0_0_S256x1024 (ix2 p j)) * v4 (ix2 p j)
      + Ideal.logistic (extractStridedSlice S256x1024 ![0, 1024] (k0_pay4 (F := Ideal) v10 v36 v37 v39) slices_S256x4096_o0_1024_S256x1024 (ix2 p j))
        * Ideal.tanh (extractStridedSlice S256x1024 ![0, 3072] (k0_pay4 (F := Ideal) v10 v36 v37 v39) slices_S256x4096_o0_3072_S256x1024 (ix2 p j)) = _
  rw [slice2_axis1_apply 0 _ _ p j (qF j) rfl, slice2_axis1_apply 1024 _ _ p j (qI j) rfl,
    slice2_axis1_apply 3072 _ _ p j (qG j) rfl]

/-- σ(o) over the third quarter. -/
theorem pay6_apply (v10 v36 : FVec Ideal S256x4096 .f32) (v37 v39 : FVec Ideal S1x4096 .f32) (p : Fin 256) (j : Fin 1024) :
    k0_pay6 (F := Ideal) v10 v36 v37 v39 (ix2 p j) = Ideal.logistic (k0_pay4 (F := Ideal) v10 v36 v37 v39 (ix2 p (qO j))) := by
  unfold k0_pay6
  show Ideal.logistic (extractStridedSlice S256x1024 ![0, 2048] (k0_pay4 (F := Ideal) v10 v36 v37 v39) slices_S256x4096_o0_2048_S256x1024 (ix2 p j)) = _
  rw [slice2_axis1_apply 2048 _ _ p j (qO j) rfl]

/-- The new cell state's row means, as the kernel dialect computes them. -/
theorem pay9_eq {F : FTy → Type} [FloatOps F] (v4 : FVec F S256x1024 .f32) (v10 v36 : FVec F S256x4096 .f32) (v37 v39 : FVec F S1x4096 .f32) :
    k0_pay9 (F := F) v4 v10 v36 v37 v39
      = kMean reduces_S256x1024_S256 (.inl rfl) rfl shapeCasts_S256_S256x1 0x44800000#32 (k0_pay5 (F := F) v4 v10 v36 v37 v39) := rfl

/-- The stored hidden state: a gate times tanh of the kernel dialect's layer normalisation of the new cell state. -/
theorem pay1_eq {F : FTy → Type} [FloatOps F] (v73 v74 : FVec F S256x1024 .f32) (v76 v78 : FVec F S1x1024 .f32) (v82 : FVec F S256x1 .f32) :
    k0_pay1 (F := F) v73 v74 v76 v78 v82
      = mulf v74 (tanh (kNorm reduces_S256x1024_S256 (.inl rfl) rfl shapeCasts_S256_S256x1 broadcasts_S256x1_S256x1024
          broadcasts_S1x1024_S256x1024 0x44800000#32 0x3727C5AC#32 v73 v82 v76 v78)) := rfl

theorem pay1_apply (v73 v74 : FVec Ideal S256x1024 .f32) (v76 v78 : FVec Ideal S1x1024 .f32) (v82 : FVec Ideal S256x1 .f32)
    (hmean : ∀ p : Fin 256, v82 (ix2 p (0 : Fin 1)) = rowMean len1024 fun k => v73 (ix2 p k)) (p : Fin 256) (j : Fin 1024) :
    k0_pay1 (F := Ideal) v73 v74 v76 v78 v82 (ix2 p j)
      = v74 (ix2 p j) * Ideal.tanh (layerNorm len1024 eps (fun k => v73 (ix2 p k)) (narrow v76) (narrow v78) j) := by
  refine (congrFun (pay1_eq v73 v74 v76 v78 v82) (ix2 p j)).trans ?_
  rw [mulf_apply]
  refine congrArg (v74 (ix2 p j) * ·) ?_
  show Ideal.tanh (kNorm _ _ _ _ _ _ _ _ v73 v82 v76 v78 (ix2 p j)) = _
  exact congrArg Ideal.tanh (kNorm_apply _ _ _ _ _ _ _ _ _ _ _ _ hmean p j)

/-! ## The two stored values of a block -/

/-- The stored cell state of a block at (p, j): cellNext of row p. -/
theorem cell_apply (x0 x1 x2 : FVec Ideal S256x1024 .f32) (x3 x4 : FVec Ideal S4096x1024 .bf16) (x5 x6 x7 x8 : FVec Ideal S1x4096 .f32)
    (p : Fin 256) (j : Fin 1024) :
    k0_pay5 (F := Ideal) x2 (k0_pay2 (F := Ideal) x1 x4) (k0_pay3 (F := Ideal) x0 x3 x5 x6) x7 x8 (ix2 p j)
      = cellNext (gatesSum (row x0 p) (row x1 p) (mat x3) (mat x4) (wide x5) (wide x6) (wide x7) (wide x8)) (row x2 p) j := by
  rw [pay5_apply]
  exact congrArg (fun z => cellNext z (row x2 p) j) (funext fun o => gates_apply x0 x1 x3 x4 x5 x6 x7 x8 p o)

/-- The stored hidden state of a block at (p, j): hiddenNext of row p. -/
theorem hidden_apply (x0 x1 x2 : FVec Ideal S256x1024 .f32) (x3 x4 : FVec Ideal S4096x1024 .bf16) (x5 x6 x7 x8 : FVec Ideal S1x4096 .f32)
    (x9 x10 : FVec Ideal S1x1024 .f32) (p : Fin 256) (j : Fin 1024) :
    k0_pay1 (F := Ideal) (k0_pay5 (F := Ideal) x2 (k0_pay2 (F := Ideal) x1 x4) (k0_pay3 (F := Ideal) x0 x3 x5 x6) x7 x8)
        (k0_pay6 (F := Ideal) (k0_pay2 (F := Ideal) x1 x4) (k0_pay3 (F := Ideal) x0 x3 x5 x6) x7 x8) (k0_pay7 (F := Ideal) x9) (k0_pay8 (F := Ideal) x10)
        (k0_pay9 (F := Ideal) x2 (k0_pay2 (F := Ideal) x1 x4) (k0_pay3 (F := Ideal) x0 x3 x5 x6) x7 x8) (ix2 p j)
      = hiddenNext (gatesSum (row x0 p) (row x1 p) (mat x3) (mat x4) (wide x5) (wide x6) (wide x7) (wide x8)) (row x2 p)
          (narrow x9) (narrow x10) j := by
  have e7 : narrow (k0_pay7 (F := Ideal) x9) = narrow x9 := by
    unfold k0_pay7; rw [shapeCast_self]
  have e8 : narrow (k0_pay8 (F := Ideal) x10) = narrow x10 := by
    unfold k0_pay8; rw [shapeCast_self]
  have ec : (fun k => k0_pay5 (F := Ideal) x2 (k0_pay2 (F := Ideal) x1 x4) (k0_pay3 (F := Ideal) x0 x3 x5 x6) x7 x8 (ix2 p k))
      = cellNext (gatesSum (row x0 p) (row x1 p) (mat x3) (mat x4) (wide x5) (wide x6) (wide x7) (wide x8)) (row x2 p) :=
    funext fun k => cell_apply x0 x1 x2 x3 x4 x5 x6 x7 x8 p k
  rw [pay1_apply _ _ _ _ _ (fun p => by rw [pay9_eq]; exact kMean_apply _ _ _ _ _ _ p 0) p j, pay6_apply, gates_apply, e7, e8, ec]
  rfl

end Cert.LstmCell.KernelPay

end
-- ==== Proof.KernelValue.lean ====
/-
  From the kernel's blocks to its two result arrays, at the ideal values.

  The grid has 64 points; point t stages rows 256·t … 256·t + 255 of x, h and c, the whole of the two weight matrices
  (rounded to bf16 on the host, which changes nothing at the ideal values) and of the six scale and shift rows (reshaped
  on the host; the first shift with the bias added to it), and writes back rows 256·t … 256·t + 255 of the new hidden and
  cell states. Entry (p, q) of what point t writes back is the cell's row function of row 256·t + p of the arguments
  (KernelPay.lean), the 64 blocks tile the 16384 rows, and folding the bias into the shift is gatesSum_fold: so the two
  result arrays are hiddenArr and cellArr, the LSTM cell of Spec.lean applied row by row to the argument arrays.
-/
import proofs.«420571_j18511309046399_3_alg».proof.Proof.KernelBlocks
import proofs.«420571_j18511309046399_3_alg».proof.Proof.KernelPay
import proofs.«420571_j18511309046399_3_alg».proof.Proof.Spec
import Idealize.ShloMosaic.Lib.StableHlo.Run
import Idealize.ShloMosaic.Lib.ValueIdx
import Idealize.ShloMosaic.Lib.ValueLayout
import Idealize.ShloMosaic.PureOps.Ideal

noncomputable section

open scoped BigOperators

namespace Cert.LstmCell.KernelValue

open Cert.KernelIdeal Cert.KernelIdeal.Gen Cert.KernelIdeal.Value Idealize.ShloMosaic Idealize.ShloMosaic.TcCoe Idealize.SL.Sem
  Idealize.ShloMosaic.StableHlo Idealize.ShloMosaic.ValueIdx Cert.LibLayerNorm Cert.LstmCell
open Idealize.ShloMosaic.Pipeline (Dat)

variable (m : (ℓ : Loc nD τ sig) → Buf (Elt Ideal) ℓ) (ρ : Dev nD → PrngReg)

/-! ## The arguments and the two results as functions of them -/

/-- The twelve argument arrays on core c, as launched. -/
abbrev aX (c : Dev nD) : FVec Ideal S16384x1024 .f32 := m ((c : Thread nD τ).loc main_arg0)
abbrev aH (c : Dev nD) : FVec Ideal S16384x1024 .f32 := m ((c : Thread nD τ).loc main_arg1)
abbrev aC (c : Dev nD) : FVec Ideal S16384x1024 .f32 := m ((c : Thread nD τ).loc main_arg2)
abbrev aWi (c : Dev nD) : FVec Ideal S4096x1024 .f32 := m ((c : Thread nD τ).loc main_arg3)
abbrev aWh (c : Dev nD) : FVec Ideal S4096x1024 .f32 := m ((c : Thread nD τ).loc main_arg4)
abbrev aGi (c : Dev nD) : FVec Ideal S4096 .f32 := m ((c : Thread nD τ).loc main_arg5)
abbrev aBi (c : Dev nD) : FVec Ideal S4096 .f32 := m ((c : Thread nD τ).loc main_arg6)
abbrev aGh (c : Dev nD) : FVec Ideal S4096 .f32 := m ((c : Thread nD τ).loc main_arg7)
abbrev aBh (c : Dev nD) : FVec Ideal S4096 .f32 := m ((c : Thread nD τ).loc main_arg8)
abbrev aGc (c : Dev nD) : FVec Ideal S1024 .f32 := m ((c : Thread nD τ).loc main_arg9)
abbrev aBc (c : Dev nD) : FVec Ideal S1024 .f32 := m ((c : Thread nD τ).loc main_arg10)
abbrev aBias (c : Dev nD) : FVec Ideal S4096 .f32 := m ((c : Thread nD τ).loc main_arg11)

/-- Row r of a 16384 × 1024 array, a weight matrix by coordinates, a vector by its index. -/
abbrev row (x : FVec Ideal S16384x1024 .f32) (r : Fin 16384) : Fin 1024 → EReal := fun k => x (ix2 r k)
abbrev mat (w : FVec Ideal S4096x1024 .f32) : Fin 4096 → Fin 1024 → EReal := fun o k => w (ix2 o k)
abbrev vec4096 (g : FVec Ideal S4096 .f32) : Fin 4096 → EReal := fun o => g (ix1 o)
abbrev vec1024 (g : FVec Ideal S1024 .f32) : Fin 1024 → EReal := fun j => g (ix1 j)

/-- The gate row of batch row r. -/
abbrev gateRow (c : Dev nD) (r : Fin 16384) : Fin 4096 → EReal :=
  gates (row (aX m c) r) (row (aH m c) r) (mat (aWi m c)) (mat (aWh m c)) (vec4096 (aGi m c)) (vec4096 (aBi m c))
    (vec4096 (aGh m c)) (vec4096 (aBh m c)) (vec4096 (aBias m c))

/-- The new cell state and the new hidden state, as arrays. -/
def cellArr (c : Dev nD) : S16384x1024.Idx → EReal :=
  fun i => cellNext (gateRow m c (i 0)) (row (aC m c) (i 0)) (i 1)
def hiddenArr (c : Dev nD) : S16384x1024.Idx → EReal :=
  fun i => hiddenNext (gateRow m c (i 0)) (row (aC m c) (i 0)) (vec1024 (aGc m c)) (vec1024 (aBc m c)) (i 1)

/-! ## What the host leaves for the region -/

theorem V_v0 (c : Dev nD) : (V m c main_v0 : S4096x1024.Idx → EReal) = truncf (F := Ideal) .bf16 (aWi m c) bitsLt_bf16_f32 := by
  dsimp only [Gen.V, Gen.hostOps0]; after_results
theorem V_v1 (c : Dev nD) : (V m c main_v1 : S4096x1024.Idx → EReal) = truncf (F := Ideal) .bf16 (aWh m c) bitsLt_bf16_f32 := by
  dsimp only [Gen.V, Gen.hostOps0]; after_results
theorem V_v3 (c : Dev nD) : (V m c main_v3 : S1x4096.Idx → EReal)
    = shapeCast S1x4096 (addf (F := Ideal) (aBi m c) (aBias m c)) shapeCasts_S4096_S1x4096 := by
  dsimp only [Gen.V, Gen.hostOps0]; after_results; rfl
theorem V_v4 (c : Dev nD) : (V m c main_v4 : S1x4096.Idx → EReal) = shapeCast S1x4096 (aGi m c) shapeCasts_S4096_S1x4096 := by
  dsimp only [Gen.V, Gen.hostOps0]; after_results; rfl
theorem V_v5 (c : Dev nD) : (V m c main_v5 : S1x4096.Idx → EReal) = shapeCast S1x4096 (aGh m c) shapeCasts_S4096_S1x4096 := by
  dsimp only [Gen.V, Gen.hostOps0]; after_results; rfl
theorem V_v6 (c : Dev nD) : (V m c main_v6 : S1x4096.Idx → EReal) = shapeCast S1x4096 (aBh m c) shapeCasts_S4096_S1x4096 := by
  dsimp only [Gen.V, Gen.hostOps0]; after_results; rfl
theorem V_v7 (c : Dev nD) : (V m c main_v7 : S1x1024.Idx → EReal) = shapeCast S1x1024 (aGc m c) shapeCasts_S1024_S1x1024 := by
  dsimp only [Gen.V, Gen.hostOps0]; after_results; rfl
theorem V_v8 (c : Dev nD) : (V m c main_v8 : S1x1024.Idx → EReal) = shapeCast S1x1024 (aBc m c) shapeCasts_S1024_S1x1024 := by
  dsimp only [Gen.V, Gen.hostOps0]; after_results; rfl

/-! ## The windows' blocks at a grid point -/

/-- Row p of point t's block is row 256·t + p of the array. -/
def gRow (t : Fin cfg0.N) (p : Fin 256) : Fin 16384 :=
  ⟨t.val * 256 + p.val, by have ht : t.val < 64 := N_0 ▸ t.isLt; have := p.isLt; omega⟩

theorem hz : (![0, 0] : Fin 2 → Nat) = fun _ => 0 := funext fun a => by fin_cases a <;> rfl

/-- The printed index maps, decided over the 64 points: a row-block window is at block (t, 0), a whole-array window at (0, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Where an entry of a block sits in its array: block index times block size plus the entry's coordinate, per axis. -/
theorem emb0 (t : Fin cfg0.N) (p : Fin 256) (k : Fin 1024) : ((cfg0.win 0).blk t).view.emb (ix2 p k) = ix2 (gRow t p) k := by
  obtain ⟨e0, e1⟩ := idx0 t
  funext a; apply Fin.ext
  match a with
  | ⟨0, _⟩ => show win0_0.index t (0 : Fin 2) * 256 + 1 * p.val = t.val * 256 + p.val; omega
  | ⟨1, _⟩ => show win0_0.index t (1 : Fin 2) * 1024 + 1 * k.val = k.val; omega
theorem emb1 (t : Fin cfg0.N) (p : Fin 256) (k : Fin 1024) : ((cfg0.win 1).blk t).view.emb (ix2 p k) = ix2 (gRow t p) k := by
  obtain ⟨e0, e1⟩ := idx1 t
  funext a; apply Fin.ext
  match a with
  | ⟨0, _⟩ => show win0_1.index t (0 : Fin 2) * 256 + 1 * p.val = t.val * 256 + p.val; omega
  | ⟨1, _⟩ => show win0_1.index t (1 : Fin 2) * 1024 + 1 * k.val = k.val; omega
theorem emb2 (t : Fin cfg0.N) (p : Fin 256) (k : Fin 1024) : ((cfg0.win 2).blk t).view.emb (ix2 p k) = ix2 (gRow t p) k := by
  obtain ⟨e0, e1⟩ := idx2 t
  funext a; apply Fin.ext
  match a with
  | ⟨0, _⟩ => show win0_2.index t (0 : Fin 2) * 256 + 1 * p.val = t.val * 256 + p.val; omega
  | ⟨1, _⟩ => show win0_2.index t (1 : Fin 2) * 1024 + 1 * k.val = k.val; omega
theorem emb11 (t : Fin cfg0.N) (p : Fin 256) (k : Fin 1024) : ((cfg0.win 11).blk t).view.emb (ix2 p k) = ix2 (gRow t p) k := by
  obtain ⟨e0, e1⟩ := idx11 t
  funext a; apply Fin.ext
  match a with
  | ⟨0, _⟩ => show win0_11.index t (0 : Fin 2) * 256 + 1 * p.val = t.val * 256 + p.val; omega
  | ⟨1, _⟩ => show win0_11.index t (1 : Fin 2) * 1024 + 1 * k.val = k.val; omega
theorem emb12 (t : Fin cfg0.N) (p : Fin 256) (k : Fin 1024) : ((cfg0.win 12).blk t).view.emb (ix2 p k) = ix2 (gRow t p) k := by
  obtain ⟨e0, e1⟩ := idx12 t
  funext a; apply Fin.ext
  match a with
  | ⟨0, _⟩ => show win0_12.index t (0 : Fin 2) * 256 + 1 * p.val = t.val * 256 + p.val; omega
  | ⟨1, _⟩ => show win0_12.index t (1 : Fin 2) * 1024 + 1 * k.val = k.val; omega
theorem emb3 (t : Fin cfg0.N) (o : Fin 4096) (k : Fin 1024) : ((cfg0.win 3).blk t).view.emb (ix2 o k) = ix2 o k := by
  obtain ⟨e0, e1⟩ := idx3 t
  funext a; apply Fin.ext
  match a with
  | ⟨0, _⟩ => show win0_3.index t (0 : Fin 2) * 4096 + 1 * o.val = o.val; omega
  | ⟨1, _⟩ => show win0_3.index t (1 : Fin 2) * 1024 + 1 * k.val = k.val; omega
theorem emb4 (t : Fin cfg0.N) (o : Fin 4096) (k : Fin 1024) : ((cfg0.win 4).blk t).view.emb (ix2 o k) = ix2 o k := by
  obtain ⟨e0, e1⟩ := idx4 t
  funext a; apply Fin.ext
  match a with
  | ⟨0, _⟩ => show win0_4.index t (0 : Fin 2) * 4096 + 1 * o.val = o.val; omega
  | ⟨1, _⟩ => show win0_4.index t (1 : Fin 2) * 1024 + 1 * k.val = k.val; omega
theorem emb5 (t : Fin cfg0.N) (z : Fin 1) (o : Fin 4096) : ((cfg0.win 5).blk t).view.emb (ix2 z o) = ix2 z o := by
  obtain ⟨e0, e1⟩ := idx5 t
  funext a; apply Fin.ext
  match a with
  | ⟨0, _⟩ => show win0_5.index t (0 : Fin 2) * 1 + 1 * z.val = z.val; omega
  | ⟨1, _⟩ => show win0_5.index t (1 : Fin 2) * 4096 + 1 * o.val = o.val; omega
theorem emb6 (t : Fin cfg0.N) (z : Fin 1) (o : Fin 4096) : ((cfg0.win 6).blk t).view.emb (ix2 z o) = ix2 z o := by
  obtain ⟨e0, e1⟩ := idx6 t
  funext a; apply Fin.ext
  match a with
  | ⟨0, _⟩ => show win0_6.index t (0 : Fin 2) * 1 + 1 * z.val = z.val; omega
  | ⟨1, _⟩ => show win0_6.index t (1 : Fin 2) * 4096 + 1 * o.val = o.val; omega
theorem emb7 (t : Fin cfg0.N) (z : Fin 1) (o : Fin 4096) : ((cfg0.win 7).blk t).view.emb (ix2 z o) = ix2 z o := by
  obtain ⟨e0, e1⟩ := idx7 t
  funext a; apply Fin.ext
  match a with
  | ⟨0, _⟩ => show win0_7.index t (0 : Fin 2) * 1 + 1 * z.val = z.val; omega
  | ⟨1, _⟩ => show win0_7.index t (1 : Fin 2) * 4096 + 1 * o.val = o.val; omega
theorem emb8 (t : Fin cfg0.N) (z : Fin 1) (o : Fin 4096) : ((cfg0.win 8).blk t).view.emb (ix2 z o) = ix2 z o := by
  obtain ⟨e0, e1⟩ := idx8 t
  funext a; apply Fin.ext
  match a with
  | ⟨0, _⟩ => show win0_8.index t (0 : Fin 2) * 1 + 1 * z.val = z.val; omega
  | ⟨1, _⟩ => show win0_8.index t (1 : Fin 2) * 4096 + 1 * o.val = o.val; omega
theorem emb9 (t : Fin cfg0.N) (z : Fin 1) (j : Fin 1024) : ((cfg0.win 9).blk t).view.emb (ix2 z j) = ix2 z j := by
  obtain ⟨e0, e1⟩ := idx9 t
  funext a; apply Fin.ext
  match a with
  | ⟨0, _⟩ => show win0_9.index t (0 : Fin 2) * 1 + 1 * z.val = z.val; omega
  | ⟨1, _⟩ => show win0_9.index t (1 : Fin 2) * 1024 + 1 * j.val = j.val; omega
theorem emb10 (t : Fin cfg0.N) (z : Fin 1) (j : Fin 1024) : ((cfg0.win 10).blk t).view.emb (ix2 z j) = ix2 z j := by
  obtain ⟨e0, e1⟩ := idx10 t
  funext a; apply Fin.ext
  match a with
  | ⟨0, _⟩ => show win0_10.index t (0 : Fin 2) * 1 + 1 * z.val = z.val; omega
  | ⟨1, _⟩ => show win0_10.index t (1 : Fin 2) * 1024 + 1 * j.val = j.val; omega

/-- The input windows' blocks at point t, at their literal types. -/
abbrev blk0 (c : Dev nD) (t : Fin cfg0.N) : FVec Ideal S256x1024 .f32 := iblk m c 0 t
abbrev blk1 (c : Dev nD) (t : Fin cfg0.N) : FVec Ideal S256x1024 .f32 := iblk m c 1 t
abbrev blk2 (c : Dev nD) (t : Fin cfg0.N) : FVec Ideal S256x1024 .f32 := iblk m c 2 t
abbrev blk3 (c : Dev nD) (t : Fin cfg0.N) : FVec Ideal S4096x1024 .bf16 := iblk m c 3 t
abbrev blk4 (c : Dev nD) (t : Fin cfg0.N) : FVec Ideal S4096x1024 .bf16 := iblk m c 4 t
abbrev blk5 (c : Dev nD) (t : Fin cfg0.N) : FVec Ideal S1x4096 .f32 := iblk m c 5 t
abbrev blk6 (c : Dev nD) (t : Fin cfg0.N) : FVec Ideal S1x4096 .f32 := iblk m c 6 t
abbrev blk7 (c : Dev nD) (t : Fin cfg0.N) : FVec Ideal S1x4096 .f32 := iblk m c 7 t
abbrev blk8 (c : Dev nD) (t : Fin cfg0.N) : FVec Ideal S1x4096 .f32 := iblk m c 8 t
abbrev blk9 (c : Dev nD) (t : Fin cfg0.N) : FVec Ideal S1x1024 .f32 := iblk m c 9 t
abbrev blk10 (c : Dev nD) (t : Fin cfg0.N) : FVec Ideal S1x1024 .f32 := iblk m c 10 t

/-- Row p of the x, h and c blocks is row 256·t + p of the arguments. -/
theorem blk0_row (c : Dev nD) (t : Fin cfg0.N) (p : Fin 256) : KernelPay.row (blk0 m c t) p = row (aX m c) (gRow t p) := by
  funext k
  show V m c main_arg0 (((cfg0.win 0).blk t).view.emb (ix2 p k)) = _
  rw [emb0, V_main_arg0]
theorem blk1_row (c : Dev nD) (t : Fin cfg0.N) (p : Fin 256) : KernelPay.row (blk1 m c t) p = row (aH m c) (gRow t p) := by
  funext k
  show V m c main_arg1 (((cfg0.win 1).blk t).view.emb (ix2 p k)) = _
  rw [emb1, V_main_arg1]
theorem blk2_row (c : Dev nD) (t : Fin cfg0.N) (p : Fin 256) : KernelPay.row (blk2 m c t) p = row (aC m c) (gRow t p) := by
  funext k
  show V m c main_arg2 (((cfg0.win 2).blk t).view.emb (ix2 p k)) = _
  rw [emb2, V_main_arg2]

/-- The weight blocks are the whole weight matrices (the host's rounding to bf16 is the identity at the ideal values). -/
theorem blk3_mat (c : Dev nD) (t : Fin cfg0.N) : KernelPay.mat (blk3 m c t) = mat (aWi m c) := by
  funext o k
  show V m c main_v0 (((cfg0.win 3).blk t).view.emb (ix2 o k)) = _
  rw [emb3, V_v0]
  rfl
theorem blk4_mat (c : Dev nD) (t : Fin cfg0.N) : KernelPay.mat (blk4 m c t) = mat (aWh m c) := by
  funext o k
  show V m c main_v1 (((cfg0.win 4).blk t).view.emb (ix2 o k)) = _
  rw [emb4, V_v1]
  rfl

/-- The scale and shift rows are the argument vectors; the first shift has the bias added. -/
theorem blk5_wide (c : Dev nD) (t : Fin cfg0.N) : KernelPay.wide (blk5 m c t) = vec4096 (aGi m c) := by
  funext o
  show V m c main_v4 (((cfg0.win 5).blk t).view.emb (ix2 (0 : Fin 1) o)) = _
  rw [emb5, V_v4, shapeCast_a_1a_apply]
theorem blk6_wide (c : Dev nD) (t : Fin cfg0.N) :
    KernelPay.wide (blk6 m c t) = fun o => vec4096 (aBi m c) o + vec4096 (aBias m c) o := by
  funext o
  show V m c main_v3 (((cfg0.win 6).blk t).view.emb (ix2 (0 : Fin 1) o)) = _
  rw [emb6, V_v3, shapeCast_a_1a_apply]
  rfl
theorem blk7_wide (c : Dev nD) (t : Fin cfg0.N) : KernelPay.wide (blk7 m c t) = vec4096 (aGh m c) := by
  funext o
  show V m c main_v5 (((cfg0.win 7).blk t).view.emb (ix2 (0 : Fin 1) o)) = _
  rw [emb7, V_v5, shapeCast_a_1a_apply]
theorem blk8_wide (c : Dev nD) (t : Fin cfg0.N) : KernelPay.wide (blk8 m c t) = vec4096 (aBh m c) := by
  funext o
  show V m c main_v6 (((cfg0.win 8).blk t).view.emb (ix2 (0 : Fin 1) o)) = _
  rw [emb8, V_v6, shapeCast_a_1a_apply]
theorem blk9_narrow (c : Dev nD) (t : Fin cfg0.N) : KernelPay.narrow (blk9 m c t) = vec1024 (aGc m c) := by
  funext j
  show V m c main_v7 (((cfg0.win 9).blk t).view.emb (ix2 (0 : Fin 1) j)) = _
  rw [emb9, V_v7, shapeCast_a_1a_apply]
theorem blk10_narrow (c : Dev nD) (t : Fin cfg0.N) : KernelPay.narrow (blk10 m c t) = vec1024 (aBc m c) := by
  funext j
  show V m c main_v8 (((cfg0.win 10).blk t).view.emb (ix2 (0 : Fin 1) j)) = _
  rw [emb10, V_v8, shapeCast_a_1a_apply]

/-- The summed gates of row p of point t's blocks are the gate row of row 256·t + p: the bias, folded into the first
    shift on the host, comes out by gatesSum_fold. -/
theorem gates_blk (c : Dev nD) (t : Fin cfg0.N) (p : Fin 256) :
    gatesSum (KernelPay.row (blk0 m c t) p) (KernelPay.row (blk1 m c t) p) (KernelPay.mat (blk3 m c t)) (KernelPay.mat (blk4 m c t))
        (KernelPay.wide (blk5 m c t)) (KernelPay.wide (blk6 m c t)) (KernelPay.wide (blk7 m c t)) (KernelPay.wide (blk8 m c t))
      = gateRow m c (gRow t p) := by
  rw [blk0_row, blk1_row, blk3_mat, blk4_mat, blk5_wide, blk6_wide, blk7_wide, blk8_wide]
  exact gatesSum_fold _ _ _ _ _ _ _ _ _

/-! ## What a point writes back -/

/-- Point t writes back block t of cellArr. -/
theorem flushed12_eq (c : Dev nD) (t : Fin cfg0.N) :
    (dats m 0 c).flushed 12 t = ((cfg0.win 12).blk t).view.read (Elt Ideal) (cellArr m c) := by
  rw [flushed12]
  unfold out0_12
  rw [View.canon_unit_zero hz]
  simp only [View.ld_unit_zero (S := S256x1024) hz, View.ld_unit_zero (S := S4096x1024) hz, View.ld_unit_zero (S := S1x4096) hz]
  funext y
  obtain ⟨p, q, rfl⟩ : ∃ (p : Fin 256) (q : Fin 1024), y = ix2 p q := ⟨y 0, y 1, eq_ix2 y⟩
  show k0_pay5 (F := Ideal) (blk2 m c t) (k0_pay2 (F := Ideal) (blk1 m c t) (blk4 m c t))
      (k0_pay3 (F := Ideal) (blk0 m c t) (blk3 m c t) (blk5 m c t) (blk6 m c t)) (blk7 m c t) (blk8 m c t) (ix2 p q)
    = cellArr m c (((cfg0.win 12).blk t).view.emb (ix2 p q))
  rw [KernelPay.cell_apply, emb12, gates_blk, blk2_row]
  rfl

/-- Point t writes back block t of hiddenArr. -/
theorem flushed11_eq (c : Dev nD) (t : Fin cfg0.N) :
    (dats m 0 c).flushed 11 t = ((cfg0.win 11).blk t).view.read (Elt Ideal) (hiddenArr m c) := by
  rw [flushed11]
  unfold out0_11
  rw [View.canon_unit_zero hz]
  simp only [View.ld_unit_zero (S := S256x1024) hz, View.ld_unit_zero (S := S4096x1024) hz, View.ld_unit_zero (S := S1x4096) hz,
    View.ld_unit_zero (S := S1x1024) hz]
  funext y
  obtain ⟨p, q, rfl⟩ : ∃ (p : Fin 256) (q : Fin 1024), y = ix2 p q := ⟨y 0, y 1, eq_ix2 y⟩
  show k0_pay1 (F := Ideal)
      (k0_pay5 (F := Ideal) (blk2 m c t) (k0_pay2 (F := Ideal) (blk1 m c t) (blk4 m c t))
        (k0_pay3 (F := Ideal) (blk0 m c t) (blk3 m c t) (blk5 m c t) (blk6 m c t)) (blk7 m c t) (blk8 m c t))
      (k0_pay6 (F := Ideal) (k0_pay2 (F := Ideal) (blk1 m c t) (blk4 m c t))
        (k0_pay3 (F := Ideal) (blk0 m c t) (blk3 m c t) (blk5 m c t) (blk6 m c t)) (blk7 m c t) (blk8 m c t))
      (k0_pay7 (F := Ideal) (blk9 m c t)) (k0_pay8 (F := Ideal) (blk10 m c t))
      (k0_pay9 (F := Ideal) (blk2 m c t) (k0_pay2 (F := Ideal) (blk1 m c t) (blk4 m c t))
        (k0_pay3 (F := Ideal) (blk0 m c t) (blk3 m c t) (blk5 m c t) (blk6 m c t)) (blk7 m c t) (blk8 m c t)) (ix2 p q)
    = hiddenArr m c (((cfg0.win 11).blk t).view.emb (ix2 p q))
  rw [KernelPay.hidden_apply, emb11, gates_blk, blk2_row, blk9_narrow, blk10_narrow]
  rfl

/-! ## The 64 blocks tile the arrays -/

/-- Every row lies in the block of the point that is its quotient by 256. -/
theorem cover12 (i : S16384x1024.Idx) : ∃ t : Fin cfg0.N, (cfg0.win 12).flush t = true ∧ i ∈ ((cfg0.win 12).blk t).view.set := by
  have hi0 : (i 0).val < 16384 := (i 0).isLt
  have hi1 : (i 1).val < 1024 := (i 1).isLt
  let t : Fin cfg0.N := ⟨(i 0).val / 256, by rw [show cfg0.N = 64 from N_0]; omega⟩
  obtain ⟨e0, e1⟩ := idx12 t
  have ht : t.val = (i 0).val / 256 := rfl
  refine ⟨t, flush0_12 t, ?_⟩
  show i ∈ ((View.whole main_v9_1).slice (win0_12.rect t)).set
  rw [View.set_slice_whole, Rect.mem_set_unit]
  intro a
  match a with
  | ⟨0, _⟩ => show win0_12.index t (0 : Fin 2) * 256 ≤ (i 0).val ∧ (i 0).val < win0_12.index t (0 : Fin 2) * 256 + 256; omega
  | ⟨1, _⟩ => show win0_12.index t (1 : Fin 2) * 1024 ≤ (i 1).val ∧ (i 1).val < win0_12.index t (1 : Fin 2) * 1024 + 1024; omega

theorem cover11 (i : S16384x1024.Idx) : ∃ t : Fin cfg0.N, (cfg0.win 11).flush t = true ∧ i ∈ ((cfg0.win 11).blk t).view.set := by
  have hi0 : (i 0).val < 16384 := (i 0).isLt
  have hi1 : (i 1).val < 1024 := (i 1).isLt
  let t : Fin cfg0.N := ⟨(i 0).val / 256, by rw [show cfg0.N = 64 from N_0]; omega⟩
  obtain ⟨e0, e1⟩ := idx11 t
  have ht : t.val = (i 0).val / 256 := rfl
  refine ⟨t, flush0_11 t, ?_⟩
  show i ∈ ((View.whole main_v9_0).slice (win0_11.rect t)).set
  rw [View.set_slice_whole, Rect.mem_set_unit]
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 1024 ≤ (i 1).val ∧ (i 1).val < win0_11.index t (1 : Fin 2) * 1024 + 1024; omega

/-- The two result arrays after the run. -/
theorem final12 (c : Dev nD) : (dats m 0 c).arrAt 12 cfg0.N = cellArr m c :=
  (dats m 0 c).arrAt_eq_of_cover 12 (cellArr m c) (fun t _ => flushed12_eq m c t) cover12
theorem final11 (c : Dev nD) : (dats m 0 c).arrAt 11 cfg0.N = hiddenArr m c :=
  (dats m 0 c).arrAt_eq_of_cover 11 (hiddenArr m c) (fun t _ => flushed11_eq m c t) cover11

/-! ## The run, read -/

/-- Every weakly fair execution of the kernel's @main ends with the two results at hiddenArr and cellArr of the
    arguments as launched, and the arguments unchanged. -/
theorem run : θ_run defs (onTc (τ := τ) (main (F := Ideal))) ⟨m, fun _ => 0, ρ⟩ fun r => ∀ c : Dev nD,
      r.2.mem ((c : Thread nD τ).loc main_v9_0) = hiddenArr m c
      ∧ r.2.mem ((c : Thread nD τ).loc main_v9_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final11 m c), (h c).2.1.trans (final12 m c), (h c).2.2⟩)
    (run_blocks m ρ)

end Cert.LstmCell.KernelValue

end
-- ==== Proof.RefValue.lean ====
/-
  What the reference computes, entry by entry, at the ideal values.

  The reference's run is stated over its named intermediate arrays. Read at row b they are the LSTM cell's row functions
  of Spec.lean applied to row b of x, h and c, the two weight matrices and the scale, shift and bias vectors: the two
  host dots are the projections, each normalisation chain (reduce, broadcast, divide, …, rsqrt, scale, shift) is layerNorm
  of its row, the sum of the two with the broadcast bias is the gate row, the host's 1 / (1 + exp(−z)) is the logistic
  function, and the two results are cellNext and hiddenNext.
-/
import proofs.«420571_j18511309046399_3_alg».proof.Proof.Gen.ReferenceIdeal.Run
import proofs.«420571_j18511309046399_3_alg».proof.Proof.LibDotNT
import proofs.«420571_j18511309046399_3_alg».proof.Proof.LibLayerNorm
import proofs.«420571_j18511309046399_3_alg».proof.Proof.Spec
import Idealize.ShloMosaic.Lib.ValueIdx
import Idealize.ShloMosaic.Lib.ValueLayout
import Idealize.ShloMosaic.Lib.Pipeline.Value
import Idealize.ShloMosaic.PureOps.IdealRules

noncomputable section

open scoped BigOperators

namespace Cert.LstmCell.RefValue

open Cert.ReferenceIdeal Cert.ReferenceIdeal.Gen Cert.ReferenceIdeal.Value Idealize.ShloMosaic Idealize.ShloMosaic.TcCoe
  Idealize.ShloMosaic.StableHlo Idealize.ShloMosaic.ValueIdx Cert.LibLayerNorm Cert.LibRowOps Cert.LstmCell

/-! ## The reference's text, at any float family -/

section Text

variable {F : FTy → Type} [FloatOps F] (V0 : Valuation τ sig (Elt F))

/-- The twelve argument arrays. -/
abbrev aX : FVec F S16384x1024 .f32 := V0 (Proc.devRef .tc main_arg0)
abbrev aH : FVec F S16384x1024 .f32 := V0 (Proc.devRef .tc main_arg1)
abbrev aC : FVec F S16384x1024 .f32 := V0 (Proc.devRef .tc main_arg2)
abbrev aWi : FVec F S4096x1024 .f32 := V0 (Proc.devRef .tc main_arg3)
abbrev aWh : FVec F S4096x1024 .f32 := V0 (Proc.devRef .tc main_arg4)
abbrev aGi : FVec F S4096 .f32 := V0 (Proc.devRef .tc main_arg5)
abbrev aBi : FVec F S4096 .f32 := V0 (Proc.devRef .tc main_arg6)
abbrev aGh : FVec F S4096 .f32 := V0 (Proc.devRef .tc main_arg7)
abbrev aBh : FVec F S4096 .f32 := V0 (Proc.devRef .tc main_arg8)
abbrev aGc : FVec F S1024 .f32 := V0 (Proc.devRef .tc main_arg9)
abbrev aBc : FVec F S1024 .f32 := V0 (Proc.devRef .tc main_arg10)
abbrev aBias : FVec F S4096 .f32 := V0 (Proc.devRef .tc main_arg11)

/-- The host's row means and layer normalisation over the 4096 gate columns, and over the 1024 cell columns. -/
abbrev mean4096 (v : FVec F S16384x4096 .f32) : FVec F S16384x1 .f32 :=
  hMean reducesTo_S16384x4096_S16384_d1 h_S_ bcast_S16384_S16384x1_0 bcast_S_S16384x1 0x45800000#32 v
abbrev norm4096 (v : FVec F S16384x4096 .f32) (mean : FVec F S16384x1 .f32) (g b : FVec F S4096 .f32) : FVec F S16384x4096 .f32 :=
  hNorm reducesTo_S16384x4096_S16384_d1 h_S_ bcast_S16384_S16384x1_0 bcast_S_S16384x1 bcast_S16384x1_S16384x4096_0_1
    bcast_S4096_S1x4096_1 bcast_S1x4096_S16384x4096_0_1 0x45800000#32 0x3727C5AC#32 v mean g b
abbrev mean1024 (v : FVec F S16384x1024 .f32) : FVec F S16384x1 .f32 :=
  hMean reducesTo_S16384x1024_S16384_d1 h_S_ bcast_S16384_S16384x1_0 bcast_S_S16384x1 0x44800000#32 v
abbrev norm1024 (v : FVec F S16384x1024 .f32) (mean : FVec F S16384x1 .f32) (g b : FVec F S1024 .f32) : FVec F S16384x1024 .f32 :=
  hNorm reducesTo_S16384x1024_S16384_d1 h_S_ bcast_S16384_S16384x1_0 bcast_S_S16384x1 bcast_S16384x1_S16384x1024_0_1
    bcast_S1024_S1x1024_1 bcast_S1x1024_S16384x1024_0_1 0x44800000#32 0x3727C5AC#32 v mean g b

/-- The bias vector spread over the gate matrix. -/
def biasMat : FVec F S16384x4096 .f32 :=
  broadcastInDim S16384x4096 ![0, 1] bcast_S1x4096_S16384x4096_0_1 (broadcastInDim S1x4096 ![1] bcast_S4096_S1x4096_1 (aBias V0))

/-- The host's logistic function, spelt 1 / (1 + exp(−z)). -/
def sigm (z : FVec F S16384x1024 .f32) : FVec F S16384x1024 .f32 :=
  Host.divf (broadcastInDim S16384x1024 ![] bcast_S_S16384x1024 (constant (F := F) S_ .f32 0x3F800000#32))
    (addf (broadcastInDim S16384x1024 ![] bcast_S_S16384x1024 (constant (F := F) S_ .f32 0x3F800000#32)) (Host.exp (Host.negf z)))

theorem v5_eq : res_main_v5 V0 = mean4096 (res_main_v0 V0) := rfl
theorem v29_eq : res_main_v29 V0 = mean4096 (res_main_v1 V0) := rfl

/-- The gate matrix: the two normalised projections and the bias. -/
theorem v53_eq : res_main_v53 V0
    = addf (addf (norm4096 (res_main_v0 V0) (res_main_v5 V0) (aGi V0) (aBi V0))
        (norm4096 (res_main_v1 V0) (res_main_v29 V0) (aGh V0) (aBh V0))) (biasMat V0) := rfl

/-- The new cell state. -/
theorem v73_eq : res_main_v73 V0
    = addf (mulf (sigm (extractStridedSlice S16384x1024 ![0, 0] (res_main_v53 V0) slices_S16384x4096_S16384x1024_0_0)) (aC V0))
        (mulf (sigm (extractStridedSlice S16384x1024 ![0, 1024] (res_main_v53 V0) slices_S16384x4096_S16384x1024_0_1024))
          (Host.tanh (extractStridedSlice S16384x1024 ![0, 3072] (res_main_v53 V0) slices_S16384x4096_S16384x1024_0_3072))) := rfl

theorem v83_eq : res_main_v83 V0 = mean1024 (res_main_v73 V0) := rfl

/-- The new hidden state, as the run states it. -/
def hidden : FVec F S16384x1024 .f32 :=
  mulf (sigm (extractStridedSlice S16384x1024 ![0, 2048] (res_main_v53 V0) slices_S16384x4096_S16384x1024_0_2048))
    (Host.tanh (norm1024 (res_main_v73 V0) (res_main_v83 V0) (aGc V0) (aBc V0)))

/-- The reference's run with its first result named: the run's own term for it is `hidden` (the two texts compared at any
    float family). -/
theorem run_named (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) = hidden (launchContents m c)
      ∧ r.2.mem ((c.tc : Thread nD τ).loc main_v73) = res_main_v73 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c).1.trans rfl, (h c).2⟩) (Cert.ReferenceIdeal.Value.run m ρ)

end Text

/-! ## Read at an index, at the ideal values -/

variable (V0 : Valuation τ sig (Elt Ideal))

theorem hostTanh_apply {s : Shape} {φ : FTy} (a : FVec Ideal s φ) (i : s.Idx) : Host.tanh a i = Ideal.tanh (a i) := rfl

theorem red4096 : S16384x4096.Reduces [1] S16384 := by decide
theorem red1024 : S16384x1024.Reduces [1] S16384 := by decide

/-- Row b of a 16384 × 1024 array, a weight matrix by coordinates, a vector by its index. -/
abbrev row (x : FVec Ideal S16384x1024 .f32) (b : Fin 16384) : Fin 1024 → EReal := fun k => x (ix2 b k)
abbrev mat (w : FVec Ideal S4096x1024 .f32) : Fin 4096 → Fin 1024 → EReal := fun o k => w (ix2 o k)
abbrev vec4096 (g : FVec Ideal S4096 .f32) : Fin 4096 → EReal := fun o => g (ix1 o)
abbrev vec1024 (g : FVec Ideal S1024 .f32) : Fin 1024 → EReal := fun j => g (ix1 j)

/-- The gate row of batch row b. -/
abbrev gateRow (b : Fin 16384) : Fin 4096 → EReal :=
  gates (row (aX V0) b) (row (aH V0) b) (mat (aWi V0)) (mat (aWh V0)) (vec4096 (aGi V0)) (vec4096 (aBi V0)) (vec4096 (aGh V0))
    (vec4096 (aBh V0)) (vec4096 (aBias V0))

theorem v0_apply (b : Fin 16384) (o : Fin 4096) : res_main_v0 V0 (ix2 b o) = proj (row (aX V0) b) (mat (aWi V0)) o := by
  unfold res_main_v0 proj
  exact LibDotNT.dotGeneral_apply dot_S16384x1024_S4096x1024_S16384x4096_1_1_0_0_n_n rfl rfl rfl rfl rfl rfl none .single _ _ b o

theorem v1_apply (b : Fin 16384) (o : Fin 4096) : res_main_v1 V0 (ix2 b o) = proj (row (aH V0) b) (mat (aWh V0)) o := by
  unfold res_main_v1 proj
  exact LibDotNT.dotGeneral_apply dot_S16384x1024_S4096x1024_S16384x4096_1_1_0_0_n_n rfl rfl rfl rfl rfl rfl none .single _ _ b o

theorem gates_apply (b : Fin 16384) (o : Fin 4096) : res_main_v53 V0 (ix2 b o) = gateRow V0 b o := by
  rw [v53_eq, addf_apply, addf_apply]
  unfold norm4096
  rw [hNorm_apply (hred := red4096) (hmean := fun p => by rw [v5_eq]; exact hMean_apply (hred := red4096) _ _ _ _ _ _ p 0),
    hNorm_apply (hred := red4096) (hmean := fun p => by rw [v29_eq]; exact hMean_apply (hred := red4096) _ _ _ _ _ _ p 0)]
  unfold biasMat
  rw [broadcastInDim_row_mat, broadcastInDim_vec_row]
  have e0 : (fun k => res_main_v0 V0 (ix2 b k)) = proj (row (aX V0) b) (mat (aWi V0)) := funext fun k => v0_apply V0 b k
  have e1 : (fun k => res_main_v1 V0 (ix2 b k)) = proj (row (aH V0) b) (mat (aWh V0)) := funext fun k => v1_apply V0 b k
  rw [e0, e1]
  rfl

/-- The host's 1 / (1 + exp(−z)) is the logistic function. -/
theorem sigm_apply (z : FVec Ideal S16384x1024 .f32) (i : S16384x1024.Idx) : sigm z i = Ideal.logistic (z i) := by
  unfold sigm Ideal.logistic
  rw [hostDivf_apply, addf_apply, broadcastInDim_scalar]
  show Ideal.div (Ideal.ofBits .f32 0x3F800000#32) (Ideal.ofBits .f32 0x3F800000#32 + Ideal.exp (-(z i))) = _
  rw [show Ideal.ofBits .f32 0x3F800000#32 = 1 from IdealRules.sign_bit.ideal_onePat .f32]

theorem cell_apply (b : Fin 16384) (j : Fin 1024) :
    res_main_v73 V0 (ix2 b j) = cellNext (gateRow V0 b) (row (aC V0) b) j := by
  rw [v73_eq, addf_apply, mulf_apply, mulf_apply, sigm_apply, sigm_apply, hostTanh_apply]
  rw [slice2_axis1_apply 0 _ _ b j (qF j) rfl, slice2_axis1_apply 1024 _ _ b j (qI j) rfl,
    slice2_axis1_apply 3072 _ _ b j (qG j) rfl, gates_apply, gates_apply, gates_apply]
  rfl

theorem hidden_apply (b : Fin 16384) (j : Fin 1024) :
    hidden V0 (ix2 b j) = hiddenNext (gateRow V0 b) (row (aC V0) b) (vec1024 (aGc V0)) (vec1024 (aBc V0)) j := by
  have ec : (fun k => res_main_v73 V0 (ix2 b k)) = cellNext (gateRow V0 b) (row (aC V0) b) := funext fun k => cell_apply V0 b k
  unfold hidden hiddenNext
  rw [mulf_apply, sigm_apply, slice2_axis1_apply 2048 _ _ b j (qO j) rfl, gates_apply, hostTanh_apply]
  unfold norm1024
  rw [hNorm_apply (hred := red1024) (hmean := fun p => by rw [v83_eq]; exact hMean_apply (hred := red1024) _ _ _ _ _ _ p 0), ec]

end Cert.LstmCell.RefValue

end
-- ==== Proof.lean ====
/-
  A layer-normalised LSTM cell: the fused kernel against its jnp reference, over the extended reals.

  The kernel runs 64 grid points over 256-row blocks of x, h and c; at each it takes the two projections of the rows on
  the weight matrices (contracting the last axis of both operands), normalises each over its 4096 entries, adds them, and
  from the four quarters of the sum forms c' = σ(f)·c + σ(i)·tanh(g) and h' = σ(o)·tanh(LN(c')). The reference does the
  same on all 16384 rows at once with host operations. At the ideal values the two agree entry by entry:
    · a matrix-unit product into a zero accumulator and the host's dot are one contraction (LibDotNT), and rounding the
      operands to bf16 is the identity;
    · a vector multi-reduction and the host's reduce from the zero word are one sum, so the two spellings of the row
      normalisation are one function layerNorm (LibRowOps, LibLayerNorm);
    · the kernel's logistic operation is 1 / (1 + exp(−z)), which the reference spells out;
    · the kernel adds the bias into the first normalisation's shift on the host before the call, the reference adds it after
      both normalisations: addition on the extended reals is associative and commutative (Spec.gatesSum_fold), so no
      finiteness of the inputs is needed and the precondition is never opened.
  Spec.lean states the cell row by row; KernelPay.lean reads the kernel's block at an entry, KernelValue.lean assembles
  the 64 blocks into the result arrays hiddenArr and cellArr; RefValue.lean reads the reference's run at an entry. Here the
  two are set side by side under the agreement of the arguments. The frames are the generated ones; the idealisation
  rewrote nothing, so its claim is trivial.
-/
import proofs.«420571_j18511309046399_3_alg».proof.Defs
import proofs.«420571_j18511309046399_3_alg».proof.Proof.Gen.Kernel
import proofs.«420571_j18511309046399_3_alg».proof.Proof.Gen.Kernel.Skeleton
import proofs.«420571_j18511309046399_3_alg».proof.Proof.Gen.Kernel.Launch
import proofs.«420571_j18511309046399_3_alg».proof.Proof.Gen.Kernel.Points
import proofs.«420571_j18511309046399_3_alg».proof.Proof.Gen.Kernel.Frame
import proofs.«420571_j18511309046399_3_alg».proof.Proof.Gen.KernelIdeal
import proofs.«420571_j18511309046399_3_alg».proof.Proof.Gen.KernelIdeal.Skeleton
import proofs.«420571_j18511309046399_3_alg».proof.Proof.Gen.KernelIdeal.Launch
import proofs.«420571_j18511309046399_3_alg».proof.Proof.Gen.KernelIdeal.Points
import proofs.«420571_j18511309046399_3_alg».proof.Proof.Gen.KernelIdeal.Frame
import proofs.«420571_j18511309046399_3_alg».proof.Proof.Gen.ReferenceIdeal
import proofs.«420571_j18511309046399_3_alg».proof.Proof.Gen.Pre_finite_inputs
import proofs.«420571_j18511309046399_3_alg».proof.Proof.Gen.ReferenceIdeal.Run
import proofs.«420571_j18511309046399_3_alg».proof.Proof.KernelValue
import proofs.«420571_j18511309046399_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Idealize.ShloMosaic.StableHlo
open Cert.LstmCell

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the hidden state at hiddenArr and the cell state at cellArr of the kernel's arguments: the
    kernel by its blocks (KernelValue.run), the reference by its run read at an entry (RefValue) with its arguments
    rewritten to the kernel's by their agreement. -/
theorem algebraic : Cert.algebraic_KernelIdeal_ReferenceIdeal := by
  intro m ρ m' ρ' _ hagree
  refine ⟨fun c => KernelValue.hiddenArr m c, fun c => KernelValue.cellArr m c, KernelValue.run m ρ, ?_⟩
  refine (θ_run Cert.ReferenceIdeal.defs _ _).mono (fun _ h c => ?_) (RefValue.run_named (F := Ideal) m' ρ')
  obtain ⟨h0, h1, h2, h3, h4, h5, h6, h7, h8, h9, h10, h11⟩ := hagree c
  have e0 : RefValue.aX (launchContents m' c) = KernelValue.aX m c := h0
  have e1 : RefValue.aH (launchContents m' c) = KernelValue.aH m c := h1
  have e2 : RefValue.aC (launchContents m' c) = KernelValue.aC m c := h2
  have e3 : RefValue.aWi (launchContents m' c) = KernelValue.aWi m c := h3
  have e4 : RefValue.aWh (launchContents m' c) = KernelValue.aWh m c := h4
  have e5 : RefValue.aGi (launchContents m' c) = KernelValue.aGi m c := h5
  have e6 : RefValue.aBi (launchContents m' c) = KernelValue.aBi m c := h6
  have e7 : RefValue.aGh (launchContents m' c) = KernelValue.aGh m c := h7
  have e8 : RefValue.aBh (launchContents m' c) = KernelValue.aBh m c := h8
  have e9 : RefValue.aGc (launchContents m' c) = KernelValue.aGc m c := h9
  have e10 : RefValue.aBc (launchContents m' c) = KernelValue.aBc m c := h10
  have e11 : RefValue.aBias (launchContents m' c) = KernelValue.aBias m c := h11
  refine ⟨(h c).1.trans (funext fun i => ?_), (h c).2.1.trans (funext fun i => ?_), (h c).2.2⟩
  · obtain ⟨b, j, rfl⟩ : ∃ (b : Fin 16384) (j : Fin 1024), i = ix2 b j := ⟨i 0, i 1, eq_ix2 i⟩
    refine (RefValue.hidden_apply (launchContents m' c) b j).trans ?_
    unfold RefValue.gateRow
    rw [e0, e1, e2, e3, e4, e5, e6, e7, e8, e9, e10, e11]
    rfl
  · obtain ⟨b, j, rfl⟩ : ∃ (b : Fin 16384) (j : Fin 1024), i = ix2 b j := ⟨i 0, i 1, eq_ix2 i⟩
    refine (RefValue.cell_apply (launchContents m' c) b j).trans ?_
    unfold RefValue.gateRow
    rw [e0, e1, e2, e3, e4, e5, e6, e7, e8, e11]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
